-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S2048x2048 : Shape := ⟨2, ![2048, 2048]⟩
abbrev S2048 : Shape := ⟨1, ![2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn_part3 {F : FTy → Type} [FloatOps F] (main_v48 : IVec S_ 1) (main_v49 : FVec F S2048 .f32) (main_v50 : FVec F S2048 .f32) : IVec S_ 1 :=
  let main_v51 : IVec S2048 1 := cmpf .olt main_v49 main_v50
  let main_c_19 : IVec S_ 1 := constantI S_ 1 1#1
  let main_v52 : IVec S_ 1 := (fun x v => Host.reduce IntOp.andi x v reducesTo_S2048_S_d0 h_S_) main_v51 main_c_19
  let main_v53 : IVec S_ 1 := andi main_v48 main_v52
  main_v53

def fn_part2 {F : FTy → Type} [FloatOps F] (main_arg7 : FVec F S2048 .f32) (main_arg8 : FVec F S2048x2048 .f32) (main_arg9 : FVec F S2048x2048 .f32) (main_arg10 : FVec F S2048 .f32) (main_v33 : IVec S_ 1) : IVec S_ 1 :=
  let main_v34 : FVec F S2048 .f32 := Host.absf main_arg7
  let main_cst_12 : FVec F S_ .f32 := constant S_ .f32 0x7F800000#32
  let main_v35 : FVec F S2048 .f32 := broadcastInDim S2048 ![] bcast_S_S2048 main_cst_12
  let main_v36 : IVec S2048 1 := cmpf .olt main_v34 main_v35
  let main_c_13 : IVec S_ 1 := constantI S_ 1 1#1
  let main_v37 : IVec S_ 1 := (fun x v => Host.reduce IntOp.andi x v reducesTo_S2048_S_d0 h_S_) main_v36 main_c_13
  let main_v38 : IVec S_ 1 := andi main_v33 main_v37
  let main_v39 : FVec F S2048x2048 .f32 := Host.absf main_arg8
  let main_cst_14 : FVec F S_ .f32 := constant S_ .f32 0x7F800000#32
  let main_v40 : FVec F S2048x2048 .f32 := broadcastInDim S2048x2048 ![] bcast_S_S2048x2048 main_cst_14
  let main_v41 : IVec S2048x2048 1 := cmpf .olt main_v39 main_v40
  let main_c_15 : IVec S_ 1 := constantI S_ 1 1#1
  let main_v42 : IVec S_ 1 := (fun x v => Host.reduce IntOp.andi x v reducesTo_S2048x2048_S_d0_1 h_S_) main_v41 main_c_15
  let main_v43 : IVec S_ 1 := andi main_v38 main_v42
  let main_v44 : FVec F S2048x2048 .f32 := Host.absf main_arg9
  let main_cst_16 : FVec F S_ .f32 := constant S_ .f32 0x7F800000#32
  let main_v45 : FVec F S2048x2048 .f32 := broadcastInDim S2048x2048 ![] bcast_S_S2048x2048 main_cst_16
  let main_v46 : IVec S2048x2048 1 := cmpf .olt main_v44 main_v45
  let main_c_17 : IVec S_ 1 := constantI S_ 1 1#1
  let main_v47 : IVec S_ 1 := (fun x v => Host.reduce IntOp.andi x v reducesTo_S2048x2048_S_d0_1 h_S_) main_v46 main_c_17
  let main_v48 : IVec S_ 1 := andi main_v43 main_v47
  let main_v49 : FVec F S2048 .f32 := Host.absf main_arg10
  let main_cst_18 : FVec F S_ .f32 := constant S_ .f32 0x7F800000#32
  let main_v50 : FVec F S2048 .f32 := broadcastInDim S2048 ![] bcast_S_S2048 main_cst_18
  fn_part3 (F := F) main_v48 main_v49 main_v50

def fn_part1 {F : FTy → Type} [FloatOps F] (main_arg4 : FVec F S2048 .f32) (main_arg5 : FVec F S2048x2048 .f32) (main_arg6 : FVec F S2048x2048 .f32) (main_arg7 : FVec F S2048 .f32) (main_arg8 : FVec F S2048x2048 .f32) (main_arg9 : FVec F S2048x2048 .f32) (main_arg10 : FVec F S2048 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S2048x2048 .f32 := Host.absf main_arg5
  let main_cst_8 : FVec F S_ .f32 := constant S_ .f32 0x7F800000#32
  let main_v25 : FVec F S2048x2048 .f32 := broadcastInDim S2048x2048 ![] bcast_S_S2048x2048 main_cst_8
  let main_v26 : IVec S2048x2048 1 := cmpf .olt main_v24 main_v25
  let main_c_9 : IVec S_ 1 := constantI S_ 1 1#1
  let main_v27 : IVec S_ 1 := (fun x v => Host.reduce IntOp.andi x v reducesTo_S2048x2048_S_d0_1 h_S_) main_v26 main_c_9
  let main_v28 : IVec S_ 1 := andi main_v23 main_v27
  let main_v29 : FVec F S2048x2048 .f32 := Host.absf main_arg6
  let main_cst_10 : FVec F S_ .f32 := constant S_ .f32 0x7F800000#32
  let main_v30 : FVec F S2048x2048 .f32 := broadcastInDim S2048x2048 ![] bcast_S_S2048x2048 main_cst_10
  let main_v31 : IVec S2048x2048 1 := cmpf .olt main_v29 main_v30
  let main_c_11 : IVec S_ 1 := constantI S_ 1 1#1
  let main_v32 : IVec S_ 1 := (fun x v => Host.reduce IntOp.andi x v reducesTo_S2048x2048_S_d0_1 h_S_) main_v31 main_c_11
  let main_v33 : IVec S_ 1 := andi main_v28 main_v32
  fn_part2 (F := F) main_arg7 main_arg8 main_arg9 main_arg10 main_v33

def fn {F : FTy → Type} [FloatOps F] (main_arg0 : FVec F S8192x2048 .f32) (main_arg1 : FVec F S8192x2048 .f32) (main_arg2 : FVec F S2048x2048 .f32) (main_arg3 : FVec F S2048x2048 .f32) (main_arg4 : FVec F S2048 .f32) (main_arg5 : FVec F S2048x2048 .f32) (main_arg6 : FVec F S2048x2048 .f32) (main_arg7 : FVec F S2048 .f32) (main_arg8 : FVec F S2048x2048 .f32) (main_arg9 : FVec F S2048x2048 .f32) (main_arg10 : FVec F S2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S2048x2048 .f32 := Host.absf main_arg2
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_c_3 : IVec S_ 1 := constantI S_ 1 1#1
  let main_v12 : IVec S_ 1 := (fun x v => Host.reduce IntOp.andi x v reducesTo_S2048x2048_S_d0_1 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg4 main_arg5 main_arg6 main_arg7 main_arg8 main_arg9 main_arg10 main_v13 main_v16
-- ==== Kernel.lean ====
abbrev S8192x2048 : Shape := ⟨2, ![8192, 2048]⟩
abbrev S2048x2048 : Shape := ⟨2, ![2048, 2048]⟩
abbrev S2048 : Shape := ⟨1, ![2048]⟩
abbrev S1x2048 : Shape := ⟨2, ![1, 2048]⟩
abbrev S128x2048 : Shape := ⟨2, ![128, 2048]⟩

abbrev nBuf : Space → Nat
  | .hbm => 23
  | .vmem => 31
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S2048x2048, .f32⟩
  | .hbm, ⟨3, _⟩ => ⟨S2048x2048, .f32⟩
  | .hbm, ⟨4, _⟩ => ⟨S2048, .f32⟩
  | .hbm, ⟨5, _⟩ => ⟨S2048x2048, .f32⟩
  | .hbm, ⟨6, _⟩ => ⟨S2048x2048, .f32⟩
  | .hbm, ⟨7, _⟩ => ⟨S2048, .f32⟩
  | .hbm, ⟨8, _⟩ => ⟨S2048x2048, .f32⟩
  | .hbm, ⟨9, _⟩ => ⟨S2048x2048, .f32⟩
  | .hbm, ⟨10, _⟩ => ⟨S2048, .f32⟩
  | .hbm, ⟨11, _⟩ => ⟨S2048x2048, .bf16⟩
  | .hbm, ⟨12, _⟩ => ⟨S2048x2048, .bf16⟩
  | .hbm, ⟨13, _⟩ => ⟨S2048x2048, .bf16⟩
  | .hbm, ⟨14, _⟩ => ⟨S2048x2048, .bf16⟩
  | .hbm, ⟨15, _⟩ => ⟨S2048x2048, .bf16⟩
  | .hbm, ⟨16, _⟩ => ⟨S2048x2048, .bf16⟩
  | .hbm, ⟨17, _⟩ => ⟨S1x2048, .f32⟩
  | .hbm, ⟨18, _⟩ => ⟨S1x2048, .f32⟩
  | .hbm, ⟨19, _⟩ => ⟨S1x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S2048x2048, .bf16⟩
  | .local _ .vmem, ⟨5, _⟩ => ⟨S2048x2048, .bf16⟩
  | .local _ .vmem, ⟨6, _⟩ => ⟨S1x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S2048x2048, .bf16⟩
  | .local _ .vmem, ⟨14, _⟩ => ⟨S2048x2048, .bf16⟩
  | .local _ .vmem, ⟨15, _⟩ => ⟨S1x2048, .f32⟩
  | .local _ .vmem, ⟨16, _⟩ => ⟨S128x2048, .f32⟩
  | .local _ .vmem, ⟨17, _⟩ => ⟨S128x2048, .f32⟩
  | .local _ .vmem, ⟨18, _⟩ => ⟨S128x2048, .f32⟩
  | .local _ .vmem, ⟨19, _⟩ => ⟨S128x2048, .f32⟩
  | .local _ .vmem, ⟨20, _⟩ => ⟨S128x2048, .f32⟩
  | .local _ .vmem, ⟨21, _⟩ => ⟨S128x2048, .f32⟩
  | .local _ .vmem, ⟨22, _⟩ => ⟨S128x2048, .f32⟩
  | .local _ .vmem, ⟨23, _⟩ => ⟨S128x2048, .f32⟩
  | .local _ .vmem, ⟨24, _⟩ => ⟨S128x2048, .f32⟩
  | .local _ .vmem, ⟨25, _⟩ => ⟨S128x2048, .f32⟩
  | .local _ .vmem, ⟨26, _⟩ => ⟨S2048x2048, .bf16⟩
  | .local _ .vmem, ⟨27, _⟩ => ⟨S2048x2048, .bf16⟩
  | .local _ .vmem, ⟨28, _⟩ => ⟨S1x2048, .f32⟩
  | .local _ .vmem, ⟨29, _⟩ => ⟨S128x2048, .f32⟩
  | .local _ .vmem, ⟨30, _⟩ => ⟨S128x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg3_1 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg7_0 : Ref sig .tc := ⟨.vmem, 29, rfl⟩
abbrev cc2_stg7_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23
abbrev cc2_sem3_0 : DmaSem sig := 24
abbrev cc2_sem3_1 : DmaSem sig := 25
abbrev cc2_sem4_0 : DmaSem sig := 26
abbrev cc2_sem5_0 : DmaSem sig := 27
abbrev cc2_sem6_0 : DmaSem sig := 28
abbrev cc2_sem7_0 : DmaSem sig := 29
abbrev cc2_sem7_1 : DmaSem sig := 30

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S128x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S2048x2048 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S2048x2048 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x2048 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S128x2048 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![64], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S128x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S128x2048 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S128x2048 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S128x2048 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S2048x2048 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S2048x2048 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x2048 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S128x2048 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  bitsLt_bf16_f32 : FTy.bits .bf16 < FTy.bits .f32
  shapeCasts_S2048_S1x2048 : S2048.ShapeCasts S1x2048
  inb_S128x2048_S128x2048_0_0 : ∀ a, (![0, 0] : Fin 2 → Nat) a + S128x2048.size a ≤ S128x2048.size a
  h_S128x2048 : 0 < S128x2048.numel
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S128x2048 : S1x2048.Broadcasts S128x2048
  shapeCasts_S128x2048_S128x2048 : S128x2048.ShapeCasts S128x2048
  dot_S128x2048_S2048x2048_S128x2048_1_0_0_1_n_n_wf : DotDims.WF S128x2048 S2048x2048 S128x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x2048.size a ≤ S8192x2048.size a
  hwx0_0 : ∀ i : grid0.Coords, EltTy.bits .f32 = 32 ∨ (Rect.block (s := S8192x2048) S128x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x2048.size a ≤ S8192x2048.size a
  hwx0_1 : ∀ i : grid0.Coords, EltTy.bits .f32 = 32 ∨ (Rect.block (s := S8192x2048) S128x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x2048.size a ≤ S2048x2048.size a
  hwx0_2 : ∀ i : grid0.Coords, EltTy.bits .bf16 = 32 ∨ (Rect.block (s := S2048x2048) S2048x2048.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x2048.size a ≤ S2048x2048.size a
  hwx0_3 : ∀ i : grid0.Coords, EltTy.bits .bf16 = 32 ∨ (Rect.block (s := S2048x2048) S2048x2048.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x2048.size a
  hwx0_4 : ∀ i : grid0.Coords, EltTy.bits .f32 = 32 ∨ (Rect.block (s := S1x2048) S1x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x2048.size a ≤ S8192x2048.size a
  hwx0_5 : ∀ i : grid0.Coords, EltTy.bits .f32 = 32 ∨ (Rect.block (s := S8192x2048) S128x2048.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x2048.size a ≤ S8192x2048.size a
  hwx1_0 : ∀ i : grid1.Coords, EltTy.bits .f32 = 32 ∨ (Rect.block (s := S8192x2048) S128x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x2048.size a ≤ S8192x2048.size a
  hwx1_1 : ∀ i : grid1.Coords, EltTy.bits .f32 = 32 ∨ (Rect.block (s := S8192x2048) S128x2048.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S2048x2048.size a ≤ S2048x2048.size a
  hwx1_2 : ∀ i : grid1.Coords, EltTy.bits .bf16 = 32 ∨ (Rect.block (s := S2048x2048) S2048x2048.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S2048x2048.size a ≤ S2048x2048.size a
  hwx1_3 : ∀ i : grid1.Coords, EltTy.bits .bf16 = 32 ∨ (Rect.block (s := S2048x2048) S2048x2048.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x2048.size a ≤ S1x2048.size a
  hwx1_4 : ∀ i : grid1.Coords, EltTy.bits .f32 = 32 ∨ (Rect.block (s := S1x2048) S1x2048.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S128x2048.size a ≤ S8192x2048.size a
  hwx1_5 : ∀ i : grid1.Coords, EltTy.bits .f32 = 32 ∨ (Rect.block (s := S8192x2048) S128x2048.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S128x2048.size a ≤ S8192x2048.size a
  hwx2_0 : ∀ i : grid2.Coords, EltTy.bits .f32 = 32 ∨ (Rect.block (s := S8192x2048) S128x2048.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S128x2048.size a ≤ S8192x2048.size a
  hwx2_1 : ∀ i : grid2.Coords, EltTy.bits .f32 = 32 ∨ (Rect.block (s := S8192x2048) S128x2048.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S128x2048.size a ≤ S8192x2048.size a
  hwx2_2 : ∀ i : grid2.Coords, EltTy.bits .f32 = 32 ∨ (Rect.block (s := S8192x2048) S128x2048.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S128x2048.size a ≤ S8192x2048.size a
  hwx2_3 : ∀ i : grid2.Coords, EltTy.bits .f32 = 32 ∨ (Rect.block (s := S8192x2048) S128x2048.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S2048x2048.size a ≤ S2048x2048.size a
  hwx2_4 : ∀ i : grid2.Coords, EltTy.bits .bf16 = 32 ∨ (Rect.block (s := S2048x2048) S2048x2048.size (cc2_transform_4 i) (hinb2_4 i)).WholeWords (EltTy.packing .bf16)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S2048x2048.size a ≤ S2048x2048.size a
  hwx2_5 : ∀ i : grid2.Coords, EltTy.bits .bf16 = 32 ∨ (Rect.block (s := S2048x2048) S2048x2048.size (cc2_transform_5 i) (hinb2_5 i)).WholeWords (EltTy.packing .bf16)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x2048.size a ≤ S1x2048.size a
  hwx2_6 : ∀ i : grid2.Coords, EltTy.bits .f32 = 32 ∨ (Rect.block (s := S1x2048) S1x2048.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S128x2048.size a ≤ S8192x2048.size a
  hwx2_7 : ∀ i : grid2.Coords, EltTy.bits .f32 = 32 ∨ (Rect.block (s := S8192x2048) S128x2048.size (cc2_transform_7 i) (hinb2_7 i)).WholeWords (EltTy.packing .f32)

variable [Facts₀]

def dot_S128x2048_S2048x2048_S128x2048_1_0_0_1_n_n : DotDims S128x2048 S2048x2048 S128x2048 where
  lhsContracting := [1]
  rhsContracting := [0]
  lhsNonContracting := [0]
  rhsNonContracting := [1]
  lhsBatch := []
  rhsBatch := []
  wf := dot_S128x2048_S2048x2048_S128x2048_1_0_0_1_n_n_wf

abbrev win0_0 : Pipeline.Window sig grid0 :=
  Pipeline.Window.ofSpec (Memref.whole main_arg0) S128x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2048x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2048x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S128x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg0) S128x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S128x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S2048x2048.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S2048x2048.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v7) S1x2048.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v10) S128x2048.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_arg0) S128x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg1) S128x2048.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v10) S128x2048.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v9) S128x2048.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v4) S2048x2048.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v5) S2048x2048.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v8) S1x2048.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v11) S128x2048.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S8192x2048 : Shape := ⟨2, ![8192, 2048]⟩
abbrev S2048x2048 : Shape := ⟨2, ![2048, 2048]⟩
abbrev S2048 : Shape := ⟨1, ![2048]⟩
abbrev S2048x6144 : Shape := ⟨2, ![2048, 6144]⟩
abbrev S8192x6144 : Shape := ⟨2, ![8192, 6144]⟩
abbrev S2048x4096 : Shape := ⟨2, ![2048, 4096]⟩
abbrev S8192x4096 : Shape := ⟨2, ![8192, 4096]⟩
abbrev S1x2048 : Shape := ⟨2, ![1, 2048]⟩
abbrev S_ : Shape := ⟨0, ![]⟩

abbrev nBuf : Space → Nat
  | .hbm => 57
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S2048x2048, .f32⟩
  | .hbm, ⟨3, _⟩ => ⟨S2048x2048, .f32⟩
  | .hbm, ⟨4, _⟩ => ⟨S2048, .f32⟩
  | .hbm, ⟨5, _⟩ => ⟨S2048x2048, .f32⟩
  | .hbm, ⟨6, _⟩ => ⟨S2048x2048, .f32⟩
  | .hbm, ⟨7, _⟩ => ⟨S2048, .f32⟩
  | .hbm, ⟨8, _⟩ => ⟨S2048x2048, .f32⟩
  | .hbm, ⟨9, _⟩ => ⟨S2048x2048, .f32⟩
  | .hbm, ⟨10, _⟩ => ⟨S2048, .f32⟩
  | .hbm, ⟨11, _⟩ => ⟨S2048x6144, .f32⟩
  | .hbm, ⟨12, _⟩ => ⟨S8192x6144, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S2048x4096, .f32⟩
  | .hbm, ⟨17, _⟩ => ⟨S8192x4096, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S1x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S_, .f32⟩
  | .hbm, ⟨27, _⟩ => ⟨S8192x2048, .f32⟩
  | .hbm, ⟨28, _⟩ => ⟨S8192x2048, .f32⟩
  | .hbm, ⟨29, _⟩ => ⟨S_, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S1x2048, .f32⟩
  | .hbm, ⟨34, _⟩ => ⟨S8192x2048, .f32⟩
  | .hbm, ⟨35, _⟩ => ⟨S8192x2048, .f32⟩
  | .hbm, ⟨36, _⟩ => ⟨S8192x2048, .f32⟩
  | .hbm, ⟨37, _⟩ => ⟨S8192x2048, .f32⟩
  | .hbm, ⟨38, _⟩ => ⟨S_, .f32⟩
  | .hbm, ⟨39, _⟩ => ⟨S8192x2048, .f32⟩
  | .hbm, ⟨40, _⟩ => ⟨S8192x2048, .f32⟩
  | .hbm, ⟨41, _⟩ => ⟨S_, .f32⟩
  | .hbm, ⟨42, _⟩ => ⟨S8192x2048, .f32⟩
  | .hbm, ⟨43, _⟩ => ⟨S8192x2048, .f32⟩
  | .hbm, ⟨44, _⟩ => ⟨S8192x2048, .f32⟩
  | .hbm, ⟨45, _⟩ => ⟨S8192x2048, .f32⟩
  | .hbm, ⟨46, _⟩ => ⟨S8192x2048, .f32⟩
  | .hbm, ⟨47, _⟩ => ⟨S1x2048, .f32⟩
  | .hbm, ⟨48, _⟩ => ⟨S8192x2048, .f32⟩
  | .hbm, ⟨49, _⟩ => ⟨S8192x2048, .f32⟩
  | .hbm, ⟨50, _⟩ => ⟨S8192x2048, .f32⟩
  | .hbm, ⟨51, _⟩ => ⟨S_, .f32⟩
  | .hbm, ⟨52, _⟩ => ⟨S8192x2048, .f32⟩
  | .hbm, ⟨53, _⟩ => ⟨S8192x2048, .f32⟩
  | .hbm, ⟨54, _⟩ => ⟨S8192x2048, .f32⟩
  | .hbm, ⟨55, _⟩ => ⟨S8192x2048, .f32⟩
  | .hbm, ⟨56, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst : Ref sig .tc := ⟨.hbm, 26, rfl⟩
abbrev main_v15 : Ref sig .tc := ⟨.hbm, 27, rfl⟩
abbrev main_v16 : Ref sig .tc := ⟨.hbm, 28, rfl⟩
abbrev main_cst_0 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_1 : Ref sig .tc := ⟨.hbm, 38, rfl⟩
abbrev main_v25 : Ref sig .tc := ⟨.hbm, 39, rfl⟩
abbrev main_v26 : Ref sig .tc := ⟨.hbm, 40, rfl⟩
abbrev main_cst_2 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_3 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩

abbrev nD : Nat := 1
abbrev τ : Topo := Topo.v7x

variable {F : FTy → Type} [FloatOps F]

class Facts₀ : Prop where
  concatenates_S2048x2048_S2048x2048_S2048x2048_S2048x6144_d1 : Shape.Concatenates [S2048x2048, S2048x2048, S2048x2048] S2048x6144 1
  slices_S8192x6144_S8192x2048_0_0 : S8192x6144.Slices ![0, 0] S8192x2048
  slices_S8192x6144_S8192x2048_0_2048 : S8192x6144.Slices ![0, 2048] S8192x2048
  slices_S8192x6144_S8192x2048_0_4096 : S8192x6144.Slices ![0, 4096] S8192x2048
  concatenates_S2048x2048_S2048x2048_S2048x4096_d1 : Shape.Concatenates [S2048x2048, S2048x2048] S2048x4096 1
  slices_S8192x4096_S8192x2048_0_0 : S8192x4096.Slices ![0, 0] S8192x2048
  slices_S8192x4096_S8192x2048_0_2048 : S8192x4096.Slices ![0, 2048] S8192x2048
  bcast_S2048_S1x2048_1 : S2048.BroadcastsInDim S1x2048 (![1] : Fin 1 → Fin S1x2048.rank)
  bcast_S1x2048_S8192x2048_0_1 : S1x2048.BroadcastsInDim S8192x2048 (![0, 1] : Fin 2 → Fin S8192x2048.rank)
  bcast_S_S8192x2048 : S_.BroadcastsInDim S8192x2048 (![] : Fin 0 → Fin S8192x2048.rank)
  dot_S8192x2048_S2048x6144_S8192x6144_1_0_0_1_n_n_wf : DotDims.WF S8192x2048 S2048x6144 S8192x6144 [1] [0] [0] [1] [] []
  dot_S8192x2048_S2048x4096_S8192x4096_1_0_0_1_n_n_wf : DotDims.WF S8192x2048 S2048x4096 S8192x4096 [1] [0] [0] [1] [] []
  dot_S8192x2048_S2048x2048_S8192x2048_1_0_0_1_n_n_wf : DotDims.WF S8192x2048 S2048x2048 S8192x2048 [1] [0] [0] [1] [] []

variable [Facts₀]

def dot_S8192x2048_S2048x6144_S8192x6144_1_0_0_1_n_n : DotDims S8192x2048 S2048x6144 S8192x6144 where
  lhsContracting := [1]
  rhsContracting := [0]
  lhsNonContracting := [0]
  rhsNonContracting := [1]
  lhsBatch := []
  rhsBatch := []
  wf := dot_S8192x2048_S2048x6144_S8192x6144_1_0_0_1_n_n_wf
def dot_S8192x2048_S2048x4096_S8192x4096_1_0_0_1_n_n : DotDims S8192x2048 S2048x4096 S8192x4096 where
  lhsContracting := [1]
  rhsContracting := [0]
  lhsNonContracting := [0]
  rhsNonContracting := [1]
  lhsBatch := []
  rhsBatch := []
  wf := dot_S8192x2048_S2048x4096_S8192x4096_1_0_0_1_n_n_wf
def dot_S8192x2048_S2048x2048_S8192x2048_1_0_0_1_n_n : DotDims S8192x2048 S2048x2048 S8192x2048 where
  lhsContracting := [1]
  rhsContracting := [0]
  lhsNonContracting := [0]
  rhsNonContracting := [1]
  lhsBatch := []
  rhsBatch := []
  wf := dot_S8192x2048_S2048x2048_S8192x2048_1_0_0_1_n_n_wf

class Facts : Prop extends Facts₀ where

variable [Facts]
-- ==== Proof.Spec.lean ====
/-
  One step of a gated recurrent unit on the extended reals, as a function of its eleven arrays.

  With `x, h : [8192, 2048]`, weights `W, U : [2048, 2048]` and a bias read lane by lane, the pre-activation at row `p`
  and lane `q` is `(∑ₖ x(p,k)·W(k,q) + ∑ₖ h(p,k)·U(k,q)) + b(q)`, summed and grouped in exactly this order. A gate is the
  logistic function of a pre-activation; the new state blends the old state `h` and the candidate
  `tanh` of the pre-activation taken at `r ⊙ h` in place of `h`: `(1 - z)·h + z·tanh(…)`.
  No law of arithmetic is used anywhere below: the two programs compute these very expressions.
-/
import Idealize.ShloMosaic.PureOps.Ideal
import Idealize.ShloMosaic.Lib.ValueIdx
import Idealize.ShloMosaic.Lib.IdealHost

noncomputable section

namespace Cert.Gru

open Idealize.ShloMosaic Idealize.ShloMosaic.ValueIdx

/-- Activations `[8192, 2048]`, weights `[2048, 2048]`, a bias as a function of the lane. -/
abbrev Act : Type := (⟨2, ![8192, 2048]⟩ : Shape).Idx → EReal
abbrev Wt : Type := (⟨2, ![2048, 2048]⟩ : Shape).Idx → EReal
abbrev Bias : Type := Fin 2048 → EReal

/-- The pre-activation `(x·W + h·U) + b` at row `p`, lane `q`. -/
def affine (x h : Act) (W U : Wt) (b : Bias) (p : Fin 8192) (q : Fin 2048) : EReal :=
  (∑ k : Fin 2048, x (ix2 p k) * W (ix2 k q) + ∑ k : Fin 2048, h (ix2 p k) * U (ix2 k q)) + b q

/-- A gate: the logistic function of the pre-activation. -/
def gate (x h : Act) (W U : Wt) (b : Bias) : Act := fun i => Ideal.logistic (affine x h W U b (i 0) (i 1))

/-- The new state from the two gates `r` and `z`: `(1 - z)·h + z·tanh((x·W + (r ⊙ h)·U) + b)`; the one is the
    word both programs write for it. -/
def blend (x h r z : Act) (W U : Wt) (b : Bias) : Act := fun i =>
  (Ideal.ofBits .f32 0x3F800000#32 - z i) * h i
    + z i * Ideal.tanh (affine x (fun j => r j * h j) W U b (i 0) (i 1))

/-- The whole step. -/
def step (x h : Act) (Wz Uz : Wt) (bz : Bias) (Wr Ur : Wt) (br : Bias) (Wh Uh : Wt) (bh : Bias) : Act :=
  blend x h (gate x h Wr Ur br) (gate x h Wz Uz bz) Wh Uh bh

theorem gate_apply (x h : Act) (W U : Wt) (b : Bias) (p : Fin 8192) (q : Fin 2048) :
    gate x h W U b (ix2 p q) = Ideal.logistic (affine x h W U b p q) := rfl

theorem blend_apply (x h r z : Act) (W U : Wt) (b : Bias) (p : Fin 8192) (q : Fin 2048) :
    blend x h r z W U b (ix2 p q)
      = (Ideal.ofBits .f32 0x3F800000#32 - z (ix2 p q)) * h (ix2 p q)
        + z (ix2 p q) * Ideal.tanh (affine x (fun j => r j * h j) W U b p q) := rfl

/-- The logistic function spelt with a negation, an exponential, a sum with the word of one and a quotient of that word. -/
theorem logistic_spelt (s : EReal) :
    Ideal.div (Ideal.ofBits .f32 0x3F800000#32) (Ideal.ofBits .f32 0x3F800000#32 + Ideal.exp (-s)) = Ideal.logistic s := by
  rw [Ideal.ofBits_one_f32]; rfl

end Cert.Gru

end
-- ==== Proof.LibRowwise.lean ====
/-
  Rank-2 vectors read row by row, at the extended reals, for any sizes.

    * a plain matrix product `[M, K] × [K, N]` into a zero accumulator, at `(p, q)`: `∑ₖ a(p, k) · b(k, q)`;
    * a sum over the lanes (axis 1) of an `[A, B]` vector, at row `p`: `∑ₖ v(p, k)`;
    * a maximum over the lanes, at row `p`: the fold of `max` from the starting word's value over `v(p, ·)`;
    * the cast of a length-`A` vector to a column `[A, 1]`, at `(p, u)`: the vector at `p`;
    * the broadcast of a column `[A, 1]` along the lanes to `[A, B]`, at `(p, q)`: the column at `(p, 0)`.

  A dimension-numbers record that contracts the left operand's axis 1 with the right operand's axis 0 and has no batch
  axes IS the plain record (`eq_plain`), so the product lemma serves every such record a program prints.
-/
import Idealize.ShloMosaic.PureOps.Ideal.Laws
import Idealize.ShloMosaic.Lib.ValueIdx
import Idealize.ShloMosaic.Lib.Pipeline.Value

noncomputable section

namespace Cert.Lib.Rowwise

open Idealize.ShloMosaic Idealize.ShloMosaic.ValueIdx

/-! ## The plain matrix product -/

section Dot

variable {M K N : Nat}

/-- A record over `[M, K]`, `[K, N]`, `[M, N]` whose six lists are the plain product's is the plain record. -/
theorem eq_plain (D : DotDims ⟨2, ![M, K]⟩ ⟨2, ![K, N]⟩ ⟨2, ![M, N]⟩) (h1 : D.lhsContracting = [1]) (h2 : D.rhsContracting = [0])
    (h3 : D.lhsNonContracting = [0]) (h4 : D.rhsNonContracting = [1]) (h5 : D.lhsBatch = []) (h6 : D.rhsBatch = []) :
    D = DotDims.plain M K N := by
  cases D
  simp only at h1 h2 h3 h4 h5 h6
  subst h1 h2 h3 h4 h5 h6
  rfl

theorem plain_lhs0 (j : (⟨2, ![M, N]⟩ : Shape).Idx) (q : (DotDims.plain M K N).contr.Idx) :
    ((DotDims.plain M K N).lhsIdx j q 0).val = (j 0).val := rfl
theorem plain_lhs1 (j : (⟨2, ![M, N]⟩ : Shape).Idx) (q : (DotDims.plain M K N).contr.Idx) :
    ((DotDims.plain M K N).lhsIdx j q 1).val = (q ⟨0, Nat.one_pos⟩).val := rfl
theorem plain_rhs0 (j : (⟨2, ![M, N]⟩ : Shape).Idx) (q : (DotDims.plain M K N).contr.Idx) :
    ((DotDims.plain M K N).rhsIdx j q 0).val = (q ⟨0, Nat.one_pos⟩).val := rfl
theorem plain_rhs1 (j : (⟨2, ![M, N]⟩ : Shape).Idx) (q : (DotDims.plain M K N).contr.Idx) :
    ((DotDims.plain M K N).rhsIdx j q 1).val = (j 1).val := rfl

/-- The plain product into the zero word, read at `(p, q)`: the sum over the contracted coordinate. -/
theorem plain_matmul_zero_apply {φ₁ φ₂ : FTy} (prec : Option ContractPrecision) (a : FVec Ideal ⟨2, ![M, K]⟩ φ₁)
    (b : FVec Ideal ⟨2, ![K, N]⟩ φ₂) (p : Fin M) (q : Fin N) :
    FloatOps.matmul (DotDims.plain M K N) prec a b (constant ⟨2, ![M, N]⟩ .f32 0x00000000#32) (ix2 p q)
      = ∑ k : Fin K, a (ix2 p k) * b (ix2 k q) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs0 _ _
      | ⟨1, _⟩ => exact (plain_lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs0 _ _).trans hk
      | ⟨1, _⟩ => exact plain_rhs1 _ _)
  rw [el, er]

end Dot

/-! ## Lane reductions -/

section Lanes

variable {A B : Nat} {φ : FTy}

/-- Row `p` with lane `k` put back is `(p, k)`. -/
theorem lift_row (h : (⟨2, ![A, B]⟩ : Shape).Reduces [1] ⟨1, ![A]⟩) (p : Fin A) (k : Fin B) :
    h.lift (ix1 p) k = ix2 p k :=
  funext fun a => Fin.ext (by match a with | ⟨0, _⟩ => rfl | ⟨1, _⟩ => rfl)

/-- A lane sum at row `p`. -/
theorem laneSum_apply (src : FVec Ideal ⟨2, ![A, B]⟩ φ) (acc : BitVec φ.bits) (h : (⟨2, ![A, B]⟩ : Shape).Reduces [1] ⟨1, ![A]⟩)
    (hφ : FKind.Formats φ) (hacc : acc = FKind.add.neutral φ hφ) (p : Fin A) :
    multiReduction .add [1] ⟨1, ![A]⟩ src acc h hφ hacc (ix1 p) = ∑ k : Fin B, src (ix2 p k) := by
  rw [Ideal.multiReduction_add_single]
  exact Finset.sum_congr rfl fun k _ => congrArg src (lift_row h p k)

/-- A lane maximum at row `p`: the fold of `max` from the starting word's value. -/
theorem laneMax_apply (src : FVec Ideal ⟨2, ![A, B]⟩ φ) (acc : BitVec φ.bits) (h : (⟨2, ![A, B]⟩ : Shape).Reduces [1] ⟨1, ![A]⟩)
    (hφ : FKind.Formats φ) (hacc : acc = FKind.maximumf.neutral φ hφ) (p : Fin A) :
    multiReduction .maximumf [1] ⟨1, ![A]⟩ src acc h hφ hacc (ix1 p)
      = (Finset.univ : Finset (Fin B)).fold max (Ideal.ofBits φ acc) (fun k => src (ix2 p k)) := by
  rw [Ideal.multiReduction_maximumf_single]
  have e : (src ∘ h.lift (ix1 p)) = fun k => src (ix2 p k) := funext fun k => congrArg src (lift_row h p k)
  rw [e]
  rfl

end Lanes

/-! ## Columns -/

section Columns

variable {A B : Nat} {α : Type}

/-- A length-`A` vector cast to a column reads, at `(p, u)`, the vector at `p`. -/
theorem column_apply (v : (⟨1, ![A]⟩ : Shape).Idx → α) (h : (⟨1, ![A]⟩ : Shape).ShapeCasts ⟨2, ![A, 1]⟩) (p : Fin A) (u : Fin 1) :
    shapeCast ⟨2, ![A, 1]⟩ v h (ix2 p u) = v (ix1 p) := by
  refine shapeCast_apply v h (ix2 p u) (ix1 p) ?_
  rw [Shape.rowMajor_val_one, Shape.rowMajor_val_two]
  have hu : u.val = 0 := by omega
  show p.val = p.val * 1 + u.val
  omega

/-- A column broadcast along the lanes reads, at `(p, q)`, the column at `(p, 0)`. -/
theorem columnBroadcast_apply (v : (⟨2, ![A, 1]⟩ : Shape).Idx → α) (h : (⟨2, ![A, 1]⟩ : Shape).Broadcasts ⟨2, ![A, B]⟩)
    (hA : A ≠ 1) (p : Fin A) (q : Fin B) : broadcastTo ⟨2, ![A, B]⟩ v h (ix2 p q) = v (ix2 p 0) := by
  refine broadcastTo_apply v h (ix2 p q) (ix2 p 0) fun a => ?_
  match a with
  | ⟨0, _⟩ => exact (if_neg hA).symm
  | ⟨1, _⟩ => exact (if_pos rfl).symm

end Columns

end Cert.Lib.Rowwise

end
-- ==== Proof.Gate0.lean ====
/-
  Region 0 (the update gate): the array the region leaves is the gate of the arrays it finds.

  The region runs one body over 64 grid points. Point `t` reads rows `128·t … 128·t + 127` of the two activation
  arrays, the two weight arrays and the bias row whole, and writes rows `128·t … 128·t + 127` of the result. At row
  `p` and lane `q` of its block the body computes the logistic function of
  `(∑ₖ x(p,k)·W(k,q) + ∑ₖ h(p,k)·U(k,q)) + b(0,q)`, which is the gate at row `128·t + p`, lane `q`. The 64 row
  blocks cover the result array, so the array ends as the gate.
-/
import proofs.«146335_j50062138802351_1_alg».proof.Proof.Gen.KernelIdeal.Frame
import proofs.«146335_j50062138802351_1_alg».proof.Proof.Spec
import proofs.«146335_j50062138802351_1_alg».proof.Proof.LibRowwise
import Idealize.ShloMosaic.Lib.ValueLayout

noncomputable section

namespace Cert.Gru.Gate0

open Idealize.ShloMosaic Idealize.ShloMosaic.ValueIdx Idealize.ShloMosaic.TcCoe Idealize.SL.Sem Cert.KernelIdeal Cert.KernelIdeal.Gen

/-! ## The body's result at an element of its block -/

/-- The printed dimension numbers (contract the left operand's lanes with the right operand's rows, no batch axes) are
    the plain product's. -/
theorem dims_plain : dot_S128x2048_S2048x2048_S128x2048_1_0_0_1_n_n = DotDims.plain 128 2048 2048 :=
  Cert.Lib.Rowwise.eq_plain _ rfl rfl rfl rfl rfl rfl

/-- The body's result at row `p`, lane `q` of its block: the change of format and the casts to the same shape are
    identities, each product into the zero word is the sum over the contracted coordinate, the bias row is read at
    lane `q`. -/
theorem pay_apply (v0 v2 : Vec Ideal S128x2048 .f32) (v4 v6 : Vec Ideal S2048x2048 .bf16) (v8 : Vec Ideal S1x2048 .f32)
    (p : Fin 128) (q : Fin 2048) :
    k0_pay1 v0 v2 v4 v6 v8 (ix2 p q)
      = Ideal.logistic ((∑ k : Fin 2048, v0 (ix2 p k) * v4 (ix2 k q) + ∑ k : Fin 2048, v2 (ix2 p k) * v6 (ix2 k q)) + v8 (ix2 0 q)) := by
  unfold k0_pay1
  rw [shapeCast_self v4, shapeCast_self v6, shapeCast_self v8, dims_plain]
  show Ideal.logistic ((FloatOps.matmul (F := Ideal) (DotDims.plain 128 2048 2048) none (truncf (F := Ideal) .bf16 v0 bitsLt_bf16_f32) v4
        (constant (F := Ideal) ⟨2, ![128, 2048]⟩ .f32 0x00000000#32) (ix2 p q)
      + FloatOps.matmul (F := Ideal) (DotDims.plain 128 2048 2048) none (truncf (F := Ideal) .bf16 v2 bitsLt_bf16_f32) v6
        (constant (F := Ideal) ⟨2, ![128, 2048]⟩ .f32 0x00000000#32) (ix2 p q))
      + broadcastTo S128x2048 v8 broadcasts_S1x2048_S128x2048 (ix2 p q)) = _
  rw [Cert.Lib.Rowwise.plain_matmul_zero_apply, Cert.Lib.Rowwise.plain_matmul_zero_apply, broadcastTo_1b_ab_apply]
  rfl

/-- On blocks that hold row `i 0` of `x` and of `h` at their row `y 0`, and the weights and the bias row whole, the
    body's result at `y` is the gate at `i`, when `y` and `i` name the same lane. -/
theorem pay_rows (x h : Cert.Gru.Act) (W U : Cert.Gru.Wt) (b : S1x2048.Idx → EReal)
    (x0 x1 : Vec Ideal S128x2048 .f32) (x2 x3 : Vec Ideal S2048x2048 .bf16) (x4 : Vec Ideal S1x2048 .f32)
    (y : S128x2048.Idx) (i : S8192x2048.Idx)
    (h0 : ∀ k : Fin 2048, x0 (ix2 (y 0) k) = x (ix2 (i 0) k))
    (h1 : ∀ k : Fin 2048, x1 (ix2 (y 0) k) = h (ix2 (i 0) k))
    (h2 : ∀ j, x2 j = W j) (h3 : ∀ j, x3 j = U j) (h4 : ∀ j, x4 j = b j) (hq : (y 1).val = (i 1).val) :
    k0_pay1 x0 x1 x2 x3 x4 y = Cert.Gru.gate x h W U (fun q => b (ix2 0 q)) i := by
  obtain ⟨p, q, rfl⟩ : ∃ (p : Fin 128) (q : Fin 2048), y = ix2 p q := ⟨y 0, y 1, eq_ix2 y⟩
  obtain ⟨P, Q, rfl⟩ : ∃ (P : Fin 8192) (Q : Fin 2048), i = ix2 P Q := ⟨i 0, i 1, eq_ix2 i⟩
  obtain rfl : q = Q := Fin.ext hq
  have h0' : ∀ k : Fin 2048, x0 (ix2 p k) = x (ix2 P k) := h0
  have h1' : ∀ k : Fin 2048, x1 (ix2 p k) = h (ix2 P k) := h1
  rw [pay_apply, Cert.Gru.gate_apply]
  unfold Cert.Gru.affine
  simp only [h0', h1', h2, h3, h4]

/-! ## What one grid point reads and writes -/

theorem zeros : (![0, 0] : Fin 2 → Nat) = fun _ => 0 := funext fun a => by fin_cases a <;> rfl

/-- The printed index maps, decided over the 64 grid points: the activation windows and the result window are at block
    row `t`, block column 0; the weight windows and the bias window stay at block (0, 0). -/
theorem index_facts : ∀ t : Fin cfg0.N, t.val < 64
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

variable (V : (c : Dev nD) → (b : Ref sig .tc) → Buf (Elt Ideal) ((c : Thread nD τ).loc b))

/-- The first activation window's block at point `t` is rows `128·t … 128·t + 127` of its array. -/
theorem block_x (c : Dev nD) (t : Fin cfg0.N) (y : S128x2048.Idx) (i : S8192x2048.Idx)
    (hi0 : (i 0).val = 128 * t.val + (y 0).val) (hi1 : (i 1).val = (y 1).val) :
    (iblk0 V c 0 t : Vec Ideal S128x2048 .f32) y = (V c main_arg0 : S8192x2048.Idx → EReal) i := by
  obtain ⟨-, e0, e1, -⟩ := index_facts t
  unfold iblk0
  rw [View.read_apply]
  show V c main_arg0 _ = V c main_arg0 _
  congr 1
  funext a
  apply Fin.ext
  match a with
  | ⟨0, _⟩ => show win0_0.index t (0 : Fin 2) * 128 + 1 * (y 0).val = (i 0).val; omega
  | ⟨1, _⟩ => show win0_0.index t (1 : Fin 2) * 2048 + 1 * (y 1).val = (i 1).val; omega

/-- The second activation window's block at point `t` is rows `128·t … 128·t + 127` of its array. -/
theorem block_h (c : Dev nD) (t : Fin cfg0.N) (y : S128x2048.Idx) (i : S8192x2048.Idx)
    (hi0 : (i 0).val = 128 * t.val + (y 0).val) (hi1 : (i 1).val = (y 1).val) :
    (iblk0 V c 1 t : Vec Ideal S128x2048 .f32) y = (V c main_arg1 : S8192x2048.Idx → EReal) i := by
  obtain ⟨-, -, -, e0, e1, -⟩ := index_facts t
  unfold iblk0
  rw [View.read_apply]
  show V c main_arg1 _ = V c main_arg1 _
  congr 1
  funext a
  apply Fin.ext
  match a with
  | ⟨0, _⟩ => show win0_1.index t (0 : Fin 2) * 128 + 1 * (y 0).val = (i 0).val; omega
  | ⟨1, _⟩ => show win0_1.index t (1 : Fin 2) * 2048 + 1 * (y 1).val = (i 1).val; omega

/-- The first weight window's block at every point is its whole array. -/
theorem block_W (c : Dev nD) (t : Fin cfg0.N) (y : S2048x2048.Idx) :
    (iblk0 V c 2 t : Vec Ideal S2048x2048 .bf16) y = (V c main_v0 : S2048x2048.Idx → EReal) y := by
  obtain ⟨-, -, -, -, -, e0, e1, -⟩ := index_facts t
  unfold iblk0
  rw [View.read_apply]
  show V c main_v0 _ = V c main_v0 _
  congr 1
  funext a
  apply Fin.ext
  match a with
  | ⟨0, _⟩ => show win0_2.index t (0 : Fin 2) * 2048 + 1 * (y 0).val = (y 0).val; omega
  | ⟨1, _⟩ => show win0_2.index t (1 : Fin 2) * 2048 + 1 * (y 1).val = (y 1).val; omega

/-- The second weight window's block at every point is its whole array. -/
theorem block_U (c : Dev nD) (t : Fin cfg0.N) (y : S2048x2048.Idx) :
    (iblk0 V c 3 t : Vec Ideal S2048x2048 .bf16) y = (V c main_v1 : S2048x2048.Idx → EReal) y := by
  obtain ⟨-, -, -, -, -, -, -, e0, e1, -⟩ := index_facts t
  unfold iblk0
  rw [View.read_apply]
  show V c main_v1 _ = V c main_v1 _
  congr 1
  funext a
  apply Fin.ext
  match a with
  | ⟨0, _⟩ => show win0_3.index t (0 : Fin 2) * 2048 + 1 * (y 0).val = (y 0).val; omega
  | ⟨1, _⟩ => show win0_3.index t (1 : Fin 2) * 2048 + 1 * (y 1).val = (y 1).val; omega

/-- The bias window's block at every point is its whole row. -/
theorem block_b (c : Dev nD) (t : Fin cfg0.N) (y : S1x2048.Idx) :
    (iblk0 V c 4 t : Vec Ideal S1x2048 .f32) y = (V c main_v6 : S1x2048.Idx → EReal) y := by
  obtain ⟨-, -, -, -, -, -, -, -, -, e0, e1, -⟩ := index_facts t
  unfold iblk0
  rw [View.read_apply]
  show V c main_v6 _ = V c main_v6 _
  congr 1
  funext a
  apply Fin.ext
  match a with
  | ⟨0, _⟩ => show win0_4.index t (0 : Fin 2) * 1 + 1 * (y 0).val = (y 0).val; omega
  | ⟨1, _⟩ => show win0_4.index t (1 : Fin 2) * 2048 + 1 * (y 1).val = (y 1).val; omega

/-- What point `t` writes back is rows `128·t … 128·t + 127` of the gate of the arrays the region finds. -/
theorem flushed_eq (c : Dev nD) (t : Fin cfg0.N) :
    (dat0 (F := Ideal) V c).flushed 5 t
      = ((cfg0.win 5).blk t).view.read (Elt Ideal)
          (Cert.Gru.gate (V c main_arg0) (V c main_arg1) (V c main_v0) (V c main_v1) (fun q => V c main_v6 (ix2 0 q))) := by
  show (cfg0.win 5).cut (grid0.coords t) ((dat0 V c).after 5 t) = _
  rw [after0_5]
  unfold out0_5
  rw [View.canon_unit_zero zeros]
  simp only [View.ld_unit_zero (S := S128x2048) zeros, View.ld_unit_zero (S := S2048x2048) zeros,
    View.ld_unit_zero (S := S1x2048) zeros]
  obtain ⟨-, -, -, -, -, -, -, -, -, -, -, e0, e1⟩ := index_facts t
  funext j
  rw [View.read_apply]
  show k0_pay1 (iblk0 V c 0 t) (iblk0 V c 1 t) (iblk0 V c 2 t) (iblk0 V c 3 t) (iblk0 V c 4 t) j
    = Cert.Gru.gate _ _ _ _ _ (((cfg0.win 5).blk t).view.emb j)
  refine pay_rows _ _ _ _ _ _ _ _ _ _ _ _ (fun k => ?_) (fun k => ?_) (fun i => ?_) (fun i => ?_) (fun i => ?_) ?_
  · exact block_x V c t _ _
      (by show win0_5.index t (0 : Fin 2) * 128 + 1 * (j 0).val = 128 * t.val + (j 0).val; omega) rfl
  · exact block_h V c t _ _
      (by show win0_5.index t (0 : Fin 2) * 128 + 1 * (j 0).val = 128 * t.val + (j 0).val; omega) rfl
  · exact block_W V c t i
  · exact block_U V c t i
  · exact block_b V c t i
  · show (j 1).val = win0_5.index t (1 : Fin 2) * 2048 + 1 * (j 1).val
    omega

/-! ## The blocks cover the array -/

/-- An index of the result array is in point `t`'s block iff each coordinate is in the block's range on its axis. -/
theorem mem_block (t : Fin cfg0.N) (i : S8192x2048.Idx) :
    i ∈ ((cfg0.win 5).blk t).view.set
      ↔ ∀ a : Fin 2, win0_5.index t a * S128x2048.size a ≤ (i a).val
          ∧ (i a).val < win0_5.index t a * S128x2048.size a + S128x2048.size a := by
  show i ∈ ((View.whole main_v9).slice (win0_5.rect t)).set ↔ _
  rw [View.set_slice_whole, Rect.mem_set_unit]
  exact Iff.rfl

/-- Row `r` of the result array is in the block of point `r / 128`, which writes back. -/
theorem covered (i : S8192x2048.Idx) :
    ∃ t : Fin cfg0.N, (cfg0.win 5).flush t = true ∧ i ∈ ((cfg0.win 5).blk t).view.set := by
  have hi0 : (i 0).val < 8192 := (i 0).isLt
  have hi1 : (i 1).val < 2048 := (i 1).isLt
  obtain ⟨t, ht⟩ : ∃ t : Fin cfg0.N, t.val = (i 0).val / 128 :=
    ⟨⟨(i 0).val / 128, by rw [show cfg0.N = 64 from N_0]; omega⟩, rfl⟩
  obtain ⟨-, -, -, -, -, -, -, -, -, -, -, e0, e1⟩ := index_facts t
  refine ⟨t, flush0_5 t, ?_⟩
  rw [mem_block]
  intro a
  match a with
  | ⟨0, _⟩ =>
    show win0_5.index t (0 : Fin 2) * 128 ≤ (i 0).val ∧ (i 0).val < win0_5.index t (0 : Fin 2) * 128 + 128
    omega
  | ⟨1, _⟩ =>
    show win0_5.index t (1 : Fin 2) * 2048 ≤ (i 1).val ∧ (i 1).val < win0_5.index t (1 : Fin 2) * 2048 + 2048
    omega

/-! ## The array the region leaves -/

/-- Whatever the buffers hold when region 0 is entered, its output array ends as the gate of its five input arrays. -/
theorem array_eq (c : Dev nD) :
    (dat0 (F := Ideal) V c).arrAt 5 cfg0.N
      = Cert.Gru.gate (V c main_arg0) (V c main_arg1) (V c main_v0) (V c main_v1) (fun q => V c main_v6 (ix2 0 q)) :=
  (dat0 (F := Ideal) V c).arrAt_eq_of_cover 5 _ (fun t _ => flushed_eq V c t) covered

end Cert.Gru.Gate0

end
-- ==== Proof.Gate1.lean ====
/-
  Region 1 (the reset gate): the array the region leaves is the gate of the arrays it finds.

  The region runs one body over 64 grid points. Point `t` reads rows `128·t … 128·t + 127` of the two activation
  arrays, the two weight arrays and the bias row whole, and writes rows `128·t … 128·t + 127` of the result. At row
  `p` and lane `q` of its block the body computes the logistic function of
  `(∑ₖ x(p,k)·W(k,q) + ∑ₖ h(p,k)·U(k,q)) + b(0,q)`, which is the gate at row `128·t + p`, lane `q`. The 64 row
  blocks cover the result array, so the array ends as the gate.
-/
import proofs.«146335_j50062138802351_1_alg».proof.Proof.Gen.KernelIdeal.Frame
import proofs.«146335_j50062138802351_1_alg».proof.Proof.Spec
import proofs.«146335_j50062138802351_1_alg».proof.Proof.LibRowwise
import Idealize.ShloMosaic.Lib.ValueLayout

noncomputable section

namespace Cert.Gru.Gate1

open Idealize.ShloMosaic Idealize.ShloMosaic.ValueIdx Idealize.ShloMosaic.TcCoe Idealize.SL.Sem Cert.KernelIdeal Cert.KernelIdeal.Gen

/-! ## The body's result at an element of its block -/

/-- The printed dimension numbers (contract the left operand's lanes with the right operand's rows, no batch axes) are
    the plain product's. -/
theorem dims_plain : dot_S128x2048_S2048x2048_S128x2048_1_0_0_1_n_n = DotDims.plain 128 2048 2048 :=
  Cert.Lib.Rowwise.eq_plain _ rfl rfl rfl rfl rfl rfl

/-- The body's result at row `p`, lane `q` of its block: the change of format and the casts to the same shape are
    identities, each product into the zero word is the sum over the contracted coordinate, the bias row is read at
    lane `q`. -/
theorem pay_apply (v0 v2 : Vec Ideal S128x2048 .f32) (v4 v6 : Vec Ideal S2048x2048 .bf16) (v8 : Vec Ideal S1x2048 .f32)
    (p : Fin 128) (q : Fin 2048) :
    k1_pay1 v0 v2 v4 v6 v8 (ix2 p q)
      = Ideal.logistic ((∑ k : Fin 2048, v0 (ix2 p k) * v4 (ix2 k q) + ∑ k : Fin 2048, v2 (ix2 p k) * v6 (ix2 k q)) + v8 (ix2 0 q)) := by
  unfold k1_pay1
  rw [shapeCast_self v4, shapeCast_self v6, shapeCast_self v8, dims_plain]
  show Ideal.logistic ((FloatOps.matmul (F := Ideal) (DotDims.plain 128 2048 2048) none (truncf (F := Ideal) .bf16 v0 bitsLt_bf16_f32) v4
        (constant (F := Ideal) ⟨2, ![128, 2048]⟩ .f32 0x00000000#32) (ix2 p q)
      + FloatOps.matmul (F := Ideal) (DotDims.plain 128 2048 2048) none (truncf (F := Ideal) .bf16 v2 bitsLt_bf16_f32) v6
        (constant (F := Ideal) ⟨2, ![128, 2048]⟩ .f32 0x00000000#32) (ix2 p q))
      + broadcastTo S128x2048 v8 broadcasts_S1x2048_S128x2048 (ix2 p q)) = _
  rw [Cert.Lib.Rowwise.plain_matmul_zero_apply, Cert.Lib.Rowwise.plain_matmul_zero_apply, broadcastTo_1b_ab_apply]
  rfl

/-- On blocks that hold row `i 0` of `x` and of `h` at their row `y 0`, and the weights and the bias row whole, the
    body's result at `y` is the gate at `i`, when `y` and `i` name the same lane. -/
theorem pay_rows (x h : Cert.Gru.Act) (W U : Cert.Gru.Wt) (b : S1x2048.Idx → EReal)
    (x0 x1 : Vec Ideal S128x2048 .f32) (x2 x3 : Vec Ideal S2048x2048 .bf16) (x4 : Vec Ideal S1x2048 .f32)
    (y : S128x2048.Idx) (i : S8192x2048.Idx)
    (h0 : ∀ k : Fin 2048, x0 (ix2 (y 0) k) = x (ix2 (i 0) k))
    (h1 : ∀ k : Fin 2048, x1 (ix2 (y 0) k) = h (ix2 (i 0) k))
    (h2 : ∀ j, x2 j = W j) (h3 : ∀ j, x3 j = U j) (h4 : ∀ j, x4 j = b j) (hq : (y 1).val = (i 1).val) :
    k1_pay1 x0 x1 x2 x3 x4 y = Cert.Gru.gate x h W U (fun q => b (ix2 0 q)) i := by
  obtain ⟨p, q, rfl⟩ : ∃ (p : Fin 128) (q : Fin 2048), y = ix2 p q := ⟨y 0, y 1, eq_ix2 y⟩
  obtain ⟨P, Q, rfl⟩ : ∃ (P : Fin 8192) (Q : Fin 2048), i = ix2 P Q := ⟨i 0, i 1, eq_ix2 i⟩
  obtain rfl : q = Q := Fin.ext hq
  have h0' : ∀ k : Fin 2048, x0 (ix2 p k) = x (ix2 P k) := h0
  have h1' : ∀ k : Fin 2048, x1 (ix2 p k) = h (ix2 P k) := h1
  rw [pay_apply, Cert.Gru.gate_apply]
  unfold Cert.Gru.affine
  simp only [h0', h1', h2, h3, h4]

/-! ## What one grid point reads and writes -/

theorem zeros : (![0, 0] : Fin 2 → Nat) = fun _ => 0 := funext fun a => by fin_cases a <;> rfl

/-- The printed index maps, decided over the 64 grid points: the activation windows and the result window are at block
    row `t`, block column 0; the weight windows and the bias window stay at block (0, 0). -/
theorem index_facts : ∀ t : Fin cfg1.N, t.val < 64
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

variable (V : (c : Dev nD) → (b : Ref sig .tc) → Buf (Elt Ideal) ((c : Thread nD τ).loc b))

/-- The first activation window's block at point `t` is rows `128·t … 128·t + 127` of its array. -/
theorem block_x (c : Dev nD) (t : Fin cfg1.N) (y : S128x2048.Idx) (i : S8192x2048.Idx)
    (hi0 : (i 0).val = 128 * t.val + (y 0).val) (hi1 : (i 1).val = (y 1).val) :
    (iblk1 V c 0 t : Vec Ideal S128x2048 .f32) y = (V c main_arg0 : S8192x2048.Idx → EReal) i := by
  obtain ⟨-, e0, e1, -⟩ := index_facts t
  unfold iblk1
  rw [View.read_apply]
  show V c main_arg0 _ = V c main_arg0 _
  congr 1
  funext a
  apply Fin.ext
  match a with
  | ⟨0, _⟩ => show win1_0.index t (0 : Fin 2) * 128 + 1 * (y 0).val = (i 0).val; omega
  | ⟨1, _⟩ => show win1_0.index t (1 : Fin 2) * 2048 + 1 * (y 1).val = (i 1).val; omega

/-- The second activation window's block at point `t` is rows `128·t … 128·t + 127` of its array. -/
theorem block_h (c : Dev nD) (t : Fin cfg1.N) (y : S128x2048.Idx) (i : S8192x2048.Idx)
    (hi0 : (i 0).val = 128 * t.val + (y 0).val) (hi1 : (i 1).val = (y 1).val) :
    (iblk1 V c 1 t : Vec Ideal S128x2048 .f32) y = (V c main_arg1 : S8192x2048.Idx → EReal) i := by
  obtain ⟨-, -, -, e0, e1, -⟩ := index_facts t
  unfold iblk1
  rw [View.read_apply]
  show V c main_arg1 _ = V c main_arg1 _
  congr 1
  funext a
  apply Fin.ext
  match a with
  | ⟨0, _⟩ => show win1_1.index t (0 : Fin 2) * 128 + 1 * (y 0).val = (i 0).val; omega
  | ⟨1, _⟩ => show win1_1.index t (1 : Fin 2) * 2048 + 1 * (y 1).val = (i 1).val; omega

/-- The first weight window's block at every point is its whole array. -/
theorem block_W (c : Dev nD) (t : Fin cfg1.N) (y : S2048x2048.Idx) :
    (iblk1 V c 2 t : Vec Ideal S2048x2048 .bf16) y = (V c main_v2 : S2048x2048.Idx → EReal) y := by
  obtain ⟨-, -, -, -, -, e0, e1, -⟩ := index_facts t
  unfold iblk1
  rw [View.read_apply]
  show V c main_v2 _ = V c main_v2 _
  congr 1
  funext a
  apply Fin.ext
  match a with
  | ⟨0, _⟩ => show win1_2.index t (0 : Fin 2) * 2048 + 1 * (y 0).val = (y 0).val; omega
  | ⟨1, _⟩ => show win1_2.index t (1 : Fin 2) * 2048 + 1 * (y 1).val = (y 1).val; omega

/-- The second weight window's block at every point is its whole array. -/
theorem block_U (c : Dev nD) (t : Fin cfg1.N) (y : S2048x2048.Idx) :
    (iblk1 V c 3 t : Vec Ideal S2048x2048 .bf16) y = (V c main_v3 : S2048x2048.Idx → EReal) y := by
  obtain ⟨-, -, -, -, -, -, -, e0, e1, -⟩ := index_facts t
  unfold iblk1
  rw [View.read_apply]
  show V c main_v3 _ = V c main_v3 _
  congr 1
  funext a
  apply Fin.ext
  match a with
  | ⟨0, _⟩ => show win1_3.index t (0 : Fin 2) * 2048 + 1 * (y 0).val = (y 0).val; omega
  | ⟨1, _⟩ => show win1_3.index t (1 : Fin 2) * 2048 + 1 * (y 1).val = (y 1).val; omega

/-- The bias window's block at every point is its whole row. -/
theorem block_b (c : Dev nD) (t : Fin cfg1.N) (y : S1x2048.Idx) :
    (iblk1 V c 4 t : Vec Ideal S1x2048 .f32) y = (V c main_v7 : S1x2048.Idx → EReal) y := by
  obtain ⟨-, -, -, -, -, -, -, -, -, e0, e1, -⟩ := index_facts t
  unfold iblk1
  rw [View.read_apply]
  show V c main_v7 _ = V c main_v7 _
  congr 1
  funext a
  apply Fin.ext
  match a with
  | ⟨0, _⟩ => show win1_4.index t (0 : Fin 2) * 1 + 1 * (y 0).val = (y 0).val; omega
  | ⟨1, _⟩ => show win1_4.index t (1 : Fin 2) * 2048 + 1 * (y 1).val = (y 1).val; omega

/-- What point `t` writes back is rows `128·t … 128·t + 127` of the gate of the arrays the region finds. -/
theorem flushed_eq (c : Dev nD) (t : Fin cfg1.N) :
    (dat1 (F := Ideal) V c).flushed 5 t
      = ((cfg1.win 5).blk t).view.read (Elt Ideal)
          (Cert.Gru.gate (V c main_arg0) (V c main_arg1) (V c main_v2) (V c main_v3) (fun q => V c main_v7 (ix2 0 q))) := by
  show (cfg1.win 5).cut (grid1.coords t) ((dat1 V c).after 5 t) = _
  rw [after1_5]
  unfold out1_5
  rw [View.canon_unit_zero zeros]
  simp only [View.ld_unit_zero (S := S128x2048) zeros, View.ld_unit_zero (S := S2048x2048) zeros,
    View.ld_unit_zero (S := S1x2048) zeros]
  obtain ⟨-, -, -, -, -, -, -, -, -, -, -, e0, e1⟩ := index_facts t
  funext j
  rw [View.read_apply]
  show k1_pay1 (iblk1 V c 0 t) (iblk1 V c 1 t) (iblk1 V c 2 t) (iblk1 V c 3 t) (iblk1 V c 4 t) j
    = Cert.Gru.gate _ _ _ _ _ (((cfg1.win 5).blk t).view.emb j)
  refine pay_rows _ _ _ _ _ _ _ _ _ _ _ _ (fun k => ?_) (fun k => ?_) (fun i => ?_) (fun i => ?_) (fun i => ?_) ?_
  · exact block_x V c t _ _
      (by show win1_5.index t (0 : Fin 2) * 128 + 1 * (j 0).val = 128 * t.val + (j 0).val; omega) rfl
  · exact block_h V c t _ _
      (by show win1_5.index t (0 : Fin 2) * 128 + 1 * (j 0).val = 128 * t.val + (j 0).val; omega) rfl
  · exact block_W V c t i
  · exact block_U V c t i
  · exact block_b V c t i
  · show (j 1).val = win1_5.index t (1 : Fin 2) * 2048 + 1 * (j 1).val
    omega

/-! ## The blocks cover the array -/

/-- An index of the result array is in point `t`'s block iff each coordinate is in the block's range on its axis. -/
theorem mem_block (t : Fin cfg1.N) (i : S8192x2048.Idx) :
    i ∈ ((cfg1.win 5).blk t).view.set
      ↔ ∀ a : Fin 2, win1_5.index t a * S128x2048.size a ≤ (i a).val
          ∧ (i a).val < win1_5.index t a * S128x2048.size a + S128x2048.size a := by
  show i ∈ ((View.whole main_v10).slice (win1_5.rect t)).set ↔ _
  rw [View.set_slice_whole, Rect.mem_set_unit]
  exact Iff.rfl

/-- Row `r` of the result array is in the block of point `r / 128`, which writes back. -/
theorem covered (i : S8192x2048.Idx) :
    ∃ t : Fin cfg1.N, (cfg1.win 5).flush t = true ∧ i ∈ ((cfg1.win 5).blk t).view.set := by
  have hi0 : (i 0).val < 8192 := (i 0).isLt
  have hi1 : (i 1).val < 2048 := (i 1).isLt
  obtain ⟨t, ht⟩ : ∃ t : Fin cfg1.N, t.val = (i 0).val / 128 :=
    ⟨⟨(i 0).val / 128, by rw [show cfg1.N = 64 from N_1]; omega⟩, rfl⟩
  obtain ⟨-, -, -, -, -, -, -, -, -, -, -, e0, e1⟩ := index_facts t
  refine ⟨t, flush1_5 t, ?_⟩
  rw [mem_block]
  intro a
  match a with
  | ⟨0, _⟩ =>
    show win1_5.index t (0 : Fin 2) * 128 ≤ (i 0).val ∧ (i 0).val < win1_5.index t (0 : Fin 2) * 128 + 128
    omega
  | ⟨1, _⟩ =>
    show win1_5.index t (1 : Fin 2) * 2048 ≤ (i 1).val ∧ (i 1).val < win1_5.index t (1 : Fin 2) * 2048 + 2048
    omega

/-! ## The array the region leaves -/

/-- Whatever the buffers hold when region 1 is entered, its output array ends as the gate of its five input arrays. -/
theorem array_eq (c : Dev nD) :
    (dat1 (F := Ideal) V c).arrAt 5 cfg1.N
      = Cert.Gru.gate (V c main_arg0) (V c main_arg1) (V c main_v2) (V c main_v3) (fun q => V c main_v7 (ix2 0 q)) :=
  (dat1 (F := Ideal) V c).arrAt_eq_of_cover 5 _ (fun t _ => flushed_eq V c t) covered

end Cert.Gru.Gate1

end
-- ==== Proof.Final2.lean ====
/-
  Region 2 (the new state): the array the region leaves is the blend of the arrays it finds.

  The region runs over 64 points; point `t` loads rows `128 t … 128 t + 127` of the input, the old state and the two
  gates, the two weights and the bias row whole, and writes rows `128 t … 128 t + 127` of the output back. Its body
  computes, element by element, `(1 - z)·h + z·tanh((x·W + (r ⊙ h)·U) + b)` from the blocks it loads; a block's element
  `(p, k)` is the array's element `(128 t + p, k)`, so what point `t` writes back is block `t` of the blend of the whole
  arrays, and the 64 blocks cover the output array.
-/
import proofs.«146335_j50062138802351_1_alg».proof.Proof.Gen.KernelIdeal.Frame
import proofs.«146335_j50062138802351_1_alg».proof.Proof.Spec
import proofs.«146335_j50062138802351_1_alg».proof.Proof.LibRowwise

noncomputable section

namespace Cert.Gru.Final2

open Idealize.ShloMosaic Idealize.ShloMosaic.ValueIdx Idealize.ShloMosaic.TcCoe Idealize.SL.Sem Cert.KernelIdeal Cert.KernelIdeal.Gen

/-! ## The body's arithmetic at one element -/

/-- A row `[1, B]` broadcast down the rows to `[A, B]` reads, at `(p, q)`, the row at `(0, q)`. -/
theorem rowBroadcast_apply {A B : Nat} {α : Type} (v : (⟨2, ![1, B]⟩ : Shape).Idx → α)
    (h : (⟨2, ![1, B]⟩ : Shape).Broadcasts ⟨2, ![A, B]⟩) (hB : B ≠ 1) (p : Fin A) (q : Fin B) :
    broadcastTo ⟨2, ![A, B]⟩ v h (ix2 p q) = v (ix2 0 q) := by
  refine broadcastTo_apply v h (ix2 p q) (ix2 0 q) fun a => ?_
  match a with
  | ⟨0, _⟩ => exact (if_pos rfl).symm
  | ⟨1, _⟩ => exact (if_neg hB).symm

/-- The contraction the body prints is the plain product `[128, 2048] × [2048, 2048]`. -/
theorem dot_eq_plain : dot_S128x2048_S2048x2048_S128x2048_1_0_0_1_n_n = DotDims.plain 128 2048 2048 :=
  Cert.Lib.Rowwise.eq_plain _ rfl rfl rfl rfl rfl rfl

/-- The body's product into the zero word at `(p, q)`: the sum over the contracted coordinate. -/
theorem product_apply {φ₁ φ₂ : FTy} (a : FVec Ideal S128x2048 φ₁) (b : FVec Ideal S2048x2048 φ₂) (p : Fin 128) (q : Fin 2048) :
    FloatOps.matmul dot_S128x2048_S2048x2048_S128x2048_1_0_0_1_n_n none a b (constant S128x2048 .f32 0x00000000#32) (ix2 p q)
      = ∑ k : Fin 2048, a (ix2 p k) * b (ix2 k q) := by
  rw [dot_eq_plain]
  exact Cert.Lib.Rowwise.plain_matmul_zero_apply none a b p q

/-- What the body stores, at row `p` and lane `q` of its block, from the blocks it loads: the input `v0`, the old
    state `v2`, the reset gate `v3`, the update gate `v5`, the two weights `v9`, `v11` and the bias row `v13`. -/
theorem payload_apply (v0 v2 v3 v5 : Vec Ideal S128x2048 .f32) (v9 v11 : Vec Ideal S2048x2048 .bf16)
    (v13 : Vec Ideal S1x2048 .f32) (p : Fin 128) (q : Fin 2048) :
    k2_pay1 (F := Ideal) v0 v2 v3 v5 v9 v11 v13 (ix2 p q)
      = (Ideal.ofBits .f32 0x3F800000#32 - v5 (ix2 p q)) * v2 (ix2 p q)
        + v5 (ix2 p q) * Ideal.tanh ((∑ k : Fin 2048, v0 (ix2 p k) * v9 (ix2 k q)
            + ∑ k : Fin 2048, (v3 (ix2 p k) * v2 (ix2 p k)) * v11 (ix2 k q)) + v13 (ix2 0 q)) := by
  unfold k2_pay1
  simp only [shapeCast_self]
  show (Ideal.ofBits .f32 0x3F800000#32 - v5 (ix2 p q)) * v2 (ix2 p q)
      + v5 (ix2 p q) * Ideal.tanh ((FloatOps.matmul (F := Ideal) dot_S128x2048_S2048x2048_S128x2048_1_0_0_1_n_n none
            (truncf (F := Ideal) .bf16 v0 Facts₀.bitsLt_bf16_f32) v9 (constant (F := Ideal) S128x2048 .f32 0x00000000#32) (ix2 p q)
          + FloatOps.matmul (F := Ideal) dot_S128x2048_S2048x2048_S128x2048_1_0_0_1_n_n none
            (truncf (F := Ideal) .bf16 (mulf (F := Ideal) v3 v2) Facts₀.bitsLt_bf16_f32) v11 (constant (F := Ideal) S128x2048 .f32 0x00000000#32) (ix2 p q))
          + broadcastTo S128x2048 v13 Facts₀.broadcasts_S1x2048_S128x2048 (ix2 p q)) = _
  rw [product_apply, product_apply, rowBroadcast_apply v13 _ (by decide) p q]
  rfl

/-! ## The blocks of the arrays -/

variable (V : (c : Dev nD) → (b : Ref sig .tc) → Buf (Elt Ideal) ((c : Thread nD τ).loc b))

theorem origin : (![0, 0] : Fin 2 → Nat) = fun _ => 0 := funext fun a => by fin_cases a <;> rfl

/-- The grid has 64 points. -/
theorem point_lt (t : Fin cfg2.N) : t.val < 64 := t.isLt

/-- Row `p` of the block of point `t` is row `128 t + p` of an `[8192, 2048]` array. -/
def row (t : Fin cfg2.N) (p : Fin 128) : Fin 8192 :=
  ⟨128 * t.val + p.val, by have := point_lt t; have := p.isLt; omega⟩

/-- The printed index maps, decided over the grid: the four activation windows and the output window sit at block
    `(t, 0)`; the two weights and the bias row at block `(0, 0)`. -/
theorem index_facts : ∀ t : Fin cfg2.N,
    (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = t.val ∧ win2_2.index t (1 : Fin 2) = 0)
    ∧ (win2_3.index t (0 : Fin 2) = t.val ∧ win2_3.index t (1 : Fin 2) = 0)
    ∧ (win2_4.index t (0 : Fin 2) = 0 ∧ win2_4.index t (1 : Fin 2) = 0)
    ∧ (win2_5.index t (0 : Fin 2) = 0 ∧ win2_5.index t (1 : Fin 2) = 0)
    ∧ (win2_6.index t (0 : Fin 2) = 0 ∧ win2_6.index t (1 : Fin 2) = 0)
    ∧ (win2_7.index t (0 : Fin 2) = t.val ∧ win2_7.index t (1 : Fin 2) = 0) :=
  (by decide +kernel : ∀ t : Fin grid2.N, _)

/-- The input's block at point \`t\`, at \`(p, k)\`: the input at \`(128 t + p, k)\`. -/
theorem input_block_apply (c : Dev nD) (t : Fin cfg2.N) (p : Fin 128) (k : Fin 2048) :
    iblk2 V c 0 t (ix2 p k) = V c main_arg0 (ix2 (row t p) k) := by
  show V c main_arg0 (((cfg2.win 0).blk t).view.emb (ix2 p k)) = _
  refine congrArg (V c main_arg0) (funext fun a => Fin.ext ?_)
  obtain ⟨e0, e1⟩ := (index_facts t).1
  match a with
  | ⟨0, _⟩ => show win2_0.index t (0 : Fin 2) * 128 + 1 * p.val = 128 * t.val + p.val; omega
  | ⟨1, _⟩ => show win2_0.index t (1 : Fin 2) * 2048 + 1 * k.val = k.val; omega

/-- The old state's block at point \`t\`, at \`(p, k)\`: the old state at \`(128 t + p, k)\`. -/
theorem state_block_apply (c : Dev nD) (t : Fin cfg2.N) (p : Fin 128) (k : Fin 2048) :
    iblk2 V c 1 t (ix2 p k) = V c main_arg1 (ix2 (row t p) k) := by
  show V c main_arg1 (((cfg2.win 1).blk t).view.emb (ix2 p k)) = _
  refine congrArg (V c main_arg1) (funext fun a => Fin.ext ?_)
  obtain ⟨e0, e1⟩ := (index_facts t).2.1
  match a with
  | ⟨0, _⟩ => show win2_1.index t (0 : Fin 2) * 128 + 1 * p.val = 128 * t.val + p.val; omega
  | ⟨1, _⟩ => show win2_1.index t (1 : Fin 2) * 2048 + 1 * k.val = k.val; omega

/-- The reset gate's block at point \`t\`, at \`(p, k)\`: the reset gate at \`(128 t + p, k)\`. -/
theorem reset_block_apply (c : Dev nD) (t : Fin cfg2.N) (p : Fin 128) (k : Fin 2048) :
    iblk2 V c 2 t (ix2 p k) = V c main_v10 (ix2 (row t p) k) := by
  show V c main_v10 (((cfg2.win 2).blk t).view.emb (ix2 p k)) = _
  refine congrArg (V c main_v10) (funext fun a => Fin.ext ?_)
  obtain ⟨e0, e1⟩ := (index_facts t).2.2.1
  match a with
  | ⟨0, _⟩ => show win2_2.index t (0 : Fin 2) * 128 + 1 * p.val = 128 * t.val + p.val; omega
  | ⟨1, _⟩ => show win2_2.index t (1 : Fin 2) * 2048 + 1 * k.val = k.val; omega

/-- The update gate's block at point \`t\`, at \`(p, k)\`: the update gate at \`(128 t + p, k)\`. -/
theorem update_block_apply (c : Dev nD) (t : Fin cfg2.N) (p : Fin 128) (k : Fin 2048) :
    iblk2 V c 3 t (ix2 p k) = V c main_v9 (ix2 (row t p) k) := by
  show V c main_v9 (((cfg2.win 3).blk t).view.emb (ix2 p k)) = _
  refine congrArg (V c main_v9) (funext fun a => Fin.ext ?_)
  obtain ⟨e0, e1⟩ := (index_facts t).2.2.2.1
  match a with
  | ⟨0, _⟩ => show win2_3.index t (0 : Fin 2) * 128 + 1 * p.val = 128 * t.val + p.val; omega
  | ⟨1, _⟩ => show win2_3.index t (1 : Fin 2) * 2048 + 1 * k.val = k.val; omega

/-- The weight applied to the input is whole at every point. -/
theorem inputWeight_block_apply (c : Dev nD) (t : Fin cfg2.N) (k : Fin 2048) (q : Fin 2048) :
    iblk2 V c 4 t (ix2 k q) = V c main_v4 (ix2 k q) := by
  show V c main_v4 (((cfg2.win 4).blk t).view.emb (ix2 k q)) = _
  refine congrArg (V c main_v4) (funext fun a => Fin.ext ?_)
  obtain ⟨e0, e1⟩ := (index_facts t).2.2.2.2.1
  match a with
  | ⟨0, _⟩ => show win2_4.index t (0 : Fin 2) * 2048 + 1 * k.val = k.val; omega
  | ⟨1, _⟩ => show win2_4.index t (1 : Fin 2) * 2048 + 1 * q.val = q.val; omega

/-- The weight applied to the gated state is whole at every point. -/
theorem stateWeight_block_apply (c : Dev nD) (t : Fin cfg2.N) (k : Fin 2048) (q : Fin 2048) :
    iblk2 V c 5 t (ix2 k q) = V c main_v5 (ix2 k q) := by
  show V c main_v5 (((cfg2.win 5).blk t).view.emb (ix2 k q)) = _
  refine congrArg (V c main_v5) (funext fun a => Fin.ext ?_)
  obtain ⟨e0, e1⟩ := (index_facts t).2.2.2.2.2.1
  match a with
  | ⟨0, _⟩ => show win2_5.index t (0 : Fin 2) * 2048 + 1 * k.val = k.val; omega
  | ⟨1, _⟩ => show win2_5.index t (1 : Fin 2) * 2048 + 1 * q.val = q.val; omega

/-- The bias row is whole at every point. -/
theorem bias_block_apply (c : Dev nD) (t : Fin cfg2.N) (q : Fin 2048) :
    iblk2 V c 6 t (ix2 0 q) = V c main_v8 (ix2 0 q) := by
  show V c main_v8 (((cfg2.win 6).blk t).view.emb (ix2 0 q)) = _
  refine congrArg (V c main_v8) (funext fun a => Fin.ext ?_)
  obtain ⟨e0, e1⟩ := (index_facts t).2.2.2.2.2.2.1
  match a with
  | ⟨0, _⟩ => show win2_6.index t (0 : Fin 2) * 1 + 1 * 0 = 0; omega
  | ⟨1, _⟩ => show win2_6.index t (1 : Fin 2) * 2048 + 1 * q.val = q.val; omega

/-- Element `(p, q)` of the output's block at point `t` is element `(128 t + p, q)` of the output array. -/
theorem output_block_emb (t : Fin cfg2.N) (p : Fin 128) (q : Fin 2048) :
    ((cfg2.win 7).blk t).view.emb (ix2 p q) = ix2 (row t p) q := by
  refine funext fun a => Fin.ext ?_
  obtain ⟨e0, e1⟩ := (index_facts t).2.2.2.2.2.2.2
  match a with
  | ⟨0, _⟩ => show win2_7.index t (0 : Fin 2) * 128 + 1 * p.val = 128 * t.val + p.val; omega
  | ⟨1, _⟩ => show win2_7.index t (1 : Fin 2) * 2048 + 1 * q.val = q.val; omega

/-! ## From the blocks to the array -/

/-- The new state as one function of the seven arrays the region finds. -/
abbrev newState (c : Dev nD) : Cert.Gru.Act :=
  Cert.Gru.blend (V c main_arg0) (V c main_arg1) (V c main_v10) (V c main_v9) (V c main_v4) (V c main_v5)
    (fun q => V c main_v8 (ix2 0 q))

/-- What point `t` writes back is block `t` of the new state. -/
theorem flushed_eq (c : Dev nD) (t : Fin cfg2.N) :
    (dat2 (F := Ideal) V c).flushed 7 t = ((cfg2.win 7).blk t).view.read (Elt Ideal) (newState V c) := by
  show (cfg2.win 7).cut (grid2.coords t) ((dat2 (F := Ideal) V c).after 7 t) = _
  rw [after2_7]
  unfold out2_7
  rw [View.canon_unit_zero origin]
  simp only [View.ld_unit_zero (S := S128x2048) origin, View.ld_unit_zero (S := S2048x2048) origin,
    View.ld_unit_zero (S := S1x2048) origin]
  funext j
  obtain ⟨p, q, rfl⟩ : ∃ (p : Fin 128) (q : Fin 2048), j = ix2 p q := ⟨j 0, j 1, eq_ix2 j⟩
  show k2_pay1 (F := Ideal) (iblk2 V c 0 t) (iblk2 V c 1 t) (iblk2 V c 2 t) (iblk2 V c 3 t) (iblk2 V c 4 t) (iblk2 V c 5 t)
      (iblk2 V c 6 t) (ix2 p q) = newState V c (((cfg2.win 7).blk t).view.emb (ix2 p q))
  rw [output_block_emb]
  refine (payload_apply _ _ _ _ _ _ _ p q).trans ?_
  simp only [input_block_apply, state_block_apply, reset_block_apply, update_block_apply, inputWeight_block_apply,
    stateWeight_block_apply, bias_block_apply]
  rfl

/-- An index of the output array is in point `t`'s block iff each coordinate is in the block's range on its axis. -/
theorem mem_block (t : Fin cfg2.N) (i : S8192x2048.Idx) :
    i ∈ ((cfg2.win 7).blk t).view.set ↔ ∀ a : Fin 2, win2_7.index t a * S128x2048.size a ≤ (i a).val
      ∧ (i a).val < win2_7.index t a * S128x2048.size a + S128x2048.size a := by
  show i ∈ ((View.whole main_v11).slice (win2_7.rect t)).set ↔ _
  rw [View.set_slice_whole, Rect.mem_set_unit]
  exact Iff.rfl

/-- Row `r` of the output array is written back by point `r / 128`. -/
theorem covered (i : S8192x2048.Idx) :
    ∃ t : Fin cfg2.N, (cfg2.win 7).flush t = true ∧ i ∈ ((cfg2.win 7).blk t).view.set := by
  have hi0 : (i 0).val < 8192 := (i 0).isLt
  have hi1 : (i 1).val < 2048 := (i 1).isLt
  have ht : (i 0).val / 128 < 64 := by omega
  refine ⟨⟨(i 0).val / 128, ht⟩, flush2_7 _, ?_⟩
  rw [mem_block]
  obtain ⟨e0, e1⟩ := (index_facts ⟨(i 0).val / 128, ht⟩).2.2.2.2.2.2.2
  have e0' : win2_7.index ⟨(i 0).val / 128, ht⟩ (0 : Fin 2) = (i 0).val / 128 := e0
  intro a
  match a with
  | ⟨0, _⟩ =>
    show win2_7.index ⟨(i 0).val / 128, ht⟩ (0 : Fin 2) * 128 ≤ (i 0).val
      ∧ (i 0).val < win2_7.index ⟨(i 0).val / 128, ht⟩ (0 : Fin 2) * 128 + 128
    omega
  | ⟨1, _⟩ =>
    show win2_7.index ⟨(i 0).val / 128, ht⟩ (1 : Fin 2) * 2048 ≤ (i 1).val
      ∧ (i 1).val < win2_7.index ⟨(i 0).val / 128, ht⟩ (1 : Fin 2) * 2048 + 2048
    omega

/-- Whatever the buffers hold when region 2 is entered, its output array ends as the blend of its seven input arrays:
    the input, the old state, the reset gate, the update gate, the two candidate weights and the candidate bias's row. -/
theorem array_eq (c : Dev nD) :
    (dat2 (F := Ideal) V c).arrAt 7 cfg2.N
      = Cert.Gru.blend (V c main_arg0) (V c main_arg1) (V c main_v10) (V c main_v9) (V c main_v4) (V c main_v5)
          (fun q => V c main_v8 (ix2 0 q)) :=
  (dat2 (F := Ideal) V c).arrAt_eq_of_cover 7 (newState V c) (fun t _ => flushed_eq V c t) covered

end Cert.Gru.Final2

end
-- ==== Proof.Fold.lean ====
/-
  What the result array holds when @main returns, as a function of the launch memory.

  @main is a stretch of host operations (six changes of float format, the identity on the extended reals, and three
  reshapes of a bias `[2048]` to a row `[1, 2048]`) followed by three regions. Each region changes only its output
  array: region 0 leaves the update gate, region 1 the reset gate, region 2 the new state, each as the recurrent unit's
  function of the arrays the region finds. Reading every array a region finds back to the launch memory, the result is
  the whole step of the eleven arguments.
-/
import proofs.«146335_j50062138802351_1_alg».proof.Proof.Gen.KernelIdeal.Frame
import proofs.«146335_j50062138802351_1_alg».proof.Proof.Spec
import proofs.«146335_j50062138802351_1_alg».proof.Proof.Gate0
import proofs.«146335_j50062138802351_1_alg».proof.Proof.Gate1
import proofs.«146335_j50062138802351_1_alg».proof.Proof.Final2
import Idealize.ShloMosaic.Lib.StableHlo.Run
import Idealize.ShloMosaic.Lib.Pipeline.Value

noncomputable section

namespace Cert.Gru.Fold

open Idealize.ShloMosaic Idealize.ShloMosaic.ValueIdx Idealize.ShloMosaic.TcCoe Idealize.SL.Sem Idealize.ShloMosaic.StableHlo
open Cert.KernelIdeal Cert.KernelIdeal.Gen

/-- A vector `[A]` cast to a row `[1, A]` reads, at `(u, q)`, the vector at `q`. -/
theorem row_apply {A : Nat} {α : Type} (v : (⟨1, ![A]⟩ : Shape).Idx → α) (h : (⟨1, ![A]⟩ : Shape).ShapeCasts ⟨2, ![1, A]⟩)
    (u : Fin 1) (q : Fin A) : shapeCast ⟨2, ![1, A]⟩ v h (ix2 u q) = v (ix1 q) := by
  refine shapeCast_apply v h (ix2 u q) (ix1 q) ?_
  rw [Shape.rowMajor_val_one, Shape.rowMajor_val_two]
  have hu : u.val = 0 := by omega
  show q.val = u.val * A + q.val
  rw [hu]; omega

variable (m : (ℓ : Loc nD τ sig) → Buf (Elt Ideal) ℓ) (ρ : Dev nD → PrngReg)

/-! ## After the host stretch -/

theorem host_x (c : Dev nD) : W1 m ρ c (Proc.devRef .tc main_arg0) = m ((c : Thread nD τ).loc main_arg0) := by
  show StableHlo.after hostOps0 (W0 m ρ c) (Proc.devRef .tc main_arg0) = _
  after_results
theorem host_h (c : Dev nD) : W1 m ρ c (Proc.devRef .tc main_arg1) = m ((c : Thread nD τ).loc main_arg1) := by
  show StableHlo.after hostOps0 (W0 m ρ c) (Proc.devRef .tc main_arg1) = _
  after_results
/-- A weight in the narrower format is the weight: the change of format is the identity on the extended reals. -/
theorem host_Wz (c : Dev nD) : W1 m ρ c (Proc.devRef .tc main_v0) = m ((c : Thread nD τ).loc main_arg2) := by
  show StableHlo.after hostOps0 (W0 m ρ c) (Proc.devRef .tc main_v0) = _
  after_results; rfl
theorem host_Uz (c : Dev nD) : W1 m ρ c (Proc.devRef .tc main_v1) = m ((c : Thread nD τ).loc main_arg3) := by
  show StableHlo.after hostOps0 (W0 m ρ c) (Proc.devRef .tc main_v1) = _
  after_results; rfl
theorem host_Wr (c : Dev nD) : W1 m ρ c (Proc.devRef .tc main_v2) = m ((c : Thread nD τ).loc main_arg5) := by
  show StableHlo.after hostOps0 (W0 m ρ c) (Proc.devRef .tc main_v2) = _
  after_results; rfl
theorem host_Ur (c : Dev nD) : W1 m ρ c (Proc.devRef .tc main_v3) = m ((c : Thread nD τ).loc main_arg6) := by
  show StableHlo.after hostOps0 (W0 m ρ c) (Proc.devRef .tc main_v3) = _
  after_results; rfl
theorem host_Wh (c : Dev nD) : W1 m ρ c (Proc.devRef .tc main_v4) = m ((c : Thread nD τ).loc main_arg8) := by
  show StableHlo.after hostOps0 (W0 m ρ c) (Proc.devRef .tc main_v4) = _
  after_results; rfl
theorem host_Uh (c : Dev nD) : W1 m ρ c (Proc.devRef .tc main_v5) = m ((c : Thread nD τ).loc main_arg9) := by
  show StableHlo.after hostOps0 (W0 m ρ c) (Proc.devRef .tc main_v5) = _
  after_results; rfl
/-- A bias's row, read lane by lane, is the bias. -/
theorem host_bz (c : Dev nD) : (fun q : Fin 2048 => W1 m ρ c (Proc.devRef .tc main_v6) (ix2 0 q))
    = fun q => m ((c : Thread nD τ).loc main_arg4) (ix1 q) := by
  funext q
  show StableHlo.after hostOps0 (W0 m ρ c) (Proc.devRef .tc main_v6) (ix2 0 q) = _
  after_results
  exact row_apply (m ((c : Thread nD τ).loc main_arg4)) shapeCasts_S2048_S1x2048 0 q
theorem host_br (c : Dev nD) : (fun q : Fin 2048 => W1 m ρ c (Proc.devRef .tc main_v7) (ix2 0 q))
    = fun q => m ((c : Thread nD τ).loc main_arg7) (ix1 q) := by
  funext q
  show StableHlo.after hostOps0 (W0 m ρ c) (Proc.devRef .tc main_v7) (ix2 0 q) = _
  after_results
  exact row_apply (m ((c : Thread nD τ).loc main_arg7)) shapeCasts_S2048_S1x2048 0 q
theorem host_bh (c : Dev nD) : (fun q : Fin 2048 => W1 m ρ c (Proc.devRef .tc main_v8) (ix2 0 q))
    = fun q => m ((c : Thread nD τ).loc main_arg10) (ix1 q) := by
  funext q
  show StableHlo.after hostOps0 (W0 m ρ c) (Proc.devRef .tc main_v8) (ix2 0 q) = _
  after_results
  exact row_apply (m ((c : Thread nD τ).loc main_arg10)) shapeCasts_S2048_S1x2048 0 q

/-! ## After region 0: its output is the update gate; every other array is as the host stretch left it -/

theorem exit0_x (c : Dev nD) : W2 m ρ c (Proc.devRef .tc main_arg0) = m ((c : Thread nD τ).loc main_arg0) :=
  (W2_arr m ρ c 0).trans ((((dat0 (V1 m ρ) c).arrAt_in 0 rfl _).trans (A_eq0 (V1 m ρ) c 0)).trans (host_x m ρ c))
theorem exit0_h (c : Dev nD) : W2 m ρ c (Proc.devRef .tc main_arg1) = m ((c : Thread nD τ).loc main_arg1) :=
  (W2_arr m ρ c 1).trans ((((dat0 (V1 m ρ) c).arrAt_in 1 rfl _).trans (A_eq0 (V1 m ρ) c 1)).trans (host_h m ρ c))
theorem exit0_Wr (c : Dev nD) : W2 m ρ c (Proc.devRef .tc main_v2) = m ((c : Thread nD τ).loc main_arg5) :=
  (W2_of_ne m ρ c main_v2 (by decide)).trans (host_Wr m ρ c)
theorem exit0_Ur (c : Dev nD) : W2 m ρ c (Proc.devRef .tc main_v3) = m ((c : Thread nD τ).loc main_arg6) :=
  (W2_of_ne m ρ c main_v3 (by decide)).trans (host_Ur m ρ c)
theorem exit0_Wh (c : Dev nD) : W2 m ρ c (Proc.devRef .tc main_v4) = m ((c : Thread nD τ).loc main_arg8) :=
  (W2_of_ne m ρ c main_v4 (by decide)).trans (host_Wh m ρ c)
theorem exit0_Uh (c : Dev nD) : W2 m ρ c (Proc.devRef .tc main_v5) = m ((c : Thread nD τ).loc main_arg9) :=
  (W2_of_ne m ρ c main_v5 (by decide)).trans (host_Uh m ρ c)
theorem exit0_br (c : Dev nD) : (fun q : Fin 2048 => W2 m ρ c (Proc.devRef .tc main_v7) (ix2 0 q))
    = fun q => m ((c : Thread nD τ).loc main_arg7) (ix1 q) := by
  rw [W2_of_ne m ρ c main_v7 (by decide)]; exact host_br m ρ c
theorem exit0_bh (c : Dev nD) : (fun q : Fin 2048 => W2 m ρ c (Proc.devRef .tc main_v8) (ix2 0 q))
    = fun q => m ((c : Thread nD τ).loc main_arg10) (ix1 q) := by
  rw [W2_of_ne m ρ c main_v8 (by decide)]; exact host_bh m ρ c

/-- The update gate, of the launch memory. -/
theorem exit0_z (c : Dev nD) : W2 m ρ c (Proc.devRef .tc main_v9)
    = Cert.Gru.gate (m ((c : Thread nD τ).loc main_arg0)) (m ((c : Thread nD τ).loc main_arg1)) (m ((c : Thread nD τ).loc main_arg2))
        (m ((c : Thread nD τ).loc main_arg3)) (fun q => m ((c : Thread nD τ).loc main_arg4) (ix1 q)) := by
  refine (W2_arr m ρ c 5).trans ((Cert.Gru.Gate0.array_eq (V1 m ρ) c).trans ?_)
  show Cert.Gru.gate (W1 m ρ c (Proc.devRef .tc main_arg0)) (W1 m ρ c (Proc.devRef .tc main_arg1)) (W1 m ρ c (Proc.devRef .tc main_v0))
    (W1 m ρ c (Proc.devRef .tc main_v1)) (fun q : Fin 2048 => W1 m ρ c (Proc.devRef .tc main_v6) (ix2 0 q)) = _
  rw [host_x, host_h, host_Wz, host_Uz, host_bz]

/-! ## After region 1: its output is the reset gate -/

theorem exit1_x (c : Dev nD) : W3 m ρ c (Proc.devRef .tc main_arg0) = m ((c : Thread nD τ).loc main_arg0) :=
  (W3_arr m ρ c 0).trans ((((dat1 (V2 m ρ) c).arrAt_in 0 rfl _).trans (A_eq1 (V2 m ρ) c 0)).trans (exit0_x m ρ c))
theorem exit1_h (c : Dev nD) : W3 m ρ c (Proc.devRef .tc main_arg1) = m ((c : Thread nD τ).loc main_arg1) :=
  (W3_arr m ρ c 1).trans ((((dat1 (V2 m ρ) c).arrAt_in 1 rfl _).trans (A_eq1 (V2 m ρ) c 1)).trans (exit0_h m ρ c))
theorem exit1_Wh (c : Dev nD) : W3 m ρ c (Proc.devRef .tc main_v4) = m ((c : Thread nD τ).loc main_arg8) :=
  (W3_of_ne m ρ c main_v4 (by decide)).trans (exit0_Wh m ρ c)
theorem exit1_Uh (c : Dev nD) : W3 m ρ c (Proc.devRef .tc main_v5) = m ((c : Thread nD τ).loc main_arg9) :=
  (W3_of_ne m ρ c main_v5 (by decide)).trans (exit0_Uh m ρ c)
theorem exit1_bh (c : Dev nD) : (fun q : Fin 2048 => W3 m ρ c (Proc.devRef .tc main_v8) (ix2 0 q))
    = fun q => m ((c : Thread nD τ).loc main_arg10) (ix1 q) := by
  rw [W3_of_ne m ρ c main_v8 (by decide)]; exact exit0_bh m ρ c
/-- Region 1 leaves the update gate as region 0 left it. -/
theorem exit1_z (c : Dev nD) : W3 m ρ c (Proc.devRef .tc main_v9)
    = Cert.Gru.gate (m ((c : Thread nD τ).loc main_arg0)) (m ((c : Thread nD τ).loc main_arg1)) (m ((c : Thread nD τ).loc main_arg2))
        (m ((c : Thread nD τ).loc main_arg3)) (fun q => m ((c : Thread nD τ).loc main_arg4) (ix1 q)) :=
  (W3_of_ne m ρ c main_v9 (by decide)).trans (exit0_z m ρ c)
/-- The reset gate, of the launch memory. -/
theorem exit1_r (c : Dev nD) : W3 m ρ c (Proc.devRef .tc main_v10)
    = Cert.Gru.gate (m ((c : Thread nD τ).loc main_arg0)) (m ((c : Thread nD τ).loc main_arg1)) (m ((c : Thread nD τ).loc main_arg5))
        (m ((c : Thread nD τ).loc main_arg6)) (fun q => m ((c : Thread nD τ).loc main_arg7) (ix1 q)) := by
  refine (W3_arr m ρ c 5).trans ((Cert.Gru.Gate1.array_eq (V2 m ρ) c).trans ?_)
  show Cert.Gru.gate (W2 m ρ c (Proc.devRef .tc main_arg0)) (W2 m ρ c (Proc.devRef .tc main_arg1)) (W2 m ρ c (Proc.devRef .tc main_v2))
    (W2 m ρ c (Proc.devRef .tc main_v3)) (fun q : Fin 2048 => W2 m ρ c (Proc.devRef .tc main_v7) (ix2 0 q)) = _
  rw [exit0_x, exit0_h, exit0_Wr, exit0_Ur, exit0_br]

/-! ## After region 2: the result -/

/-- The result array at the last boundary is the whole step of the eleven arguments. -/
theorem result_eq (c : Dev nD) : W4 m ρ c (Proc.devRef .tc main_v11)
    = Cert.Gru.step (m ((c : Thread nD τ).loc main_arg0)) (m ((c : Thread nD τ).loc main_arg1))
        (m ((c : Thread nD τ).loc main_arg2)) (m ((c : Thread nD τ).loc main_arg3)) (fun q => m ((c : Thread nD τ).loc main_arg4) (ix1 q))
        (m ((c : Thread nD τ).loc main_arg5)) (m ((c : Thread nD τ).loc main_arg6)) (fun q => m ((c : Thread nD τ).loc main_arg7) (ix1 q))
        (m ((c : Thread nD τ).loc main_arg8)) (m ((c : Thread nD τ).loc main_arg9)) (fun q => m ((c : Thread nD τ).loc main_arg10) (ix1 q)) := by
  refine (W4_arr m ρ c 7).trans ((Cert.Gru.Final2.array_eq (V3 m ρ) c).trans ?_)
  show Cert.Gru.blend (W3 m ρ c (Proc.devRef .tc main_arg0)) (W3 m ρ c (Proc.devRef .tc main_arg1)) (W3 m ρ c (Proc.devRef .tc main_v10))
    (W3 m ρ c (Proc.devRef .tc main_v9)) (W3 m ρ c (Proc.devRef .tc main_v4)) (W3 m ρ c (Proc.devRef .tc main_v5))
    (fun q : Fin 2048 => W3 m ρ c (Proc.devRef .tc main_v8) (ix2 0 q)) = _
  rw [exit1_x, exit1_h, exit1_r, exit1_z, exit1_Wh, exit1_Uh, exit1_bh]
  rfl

end Cert.Gru.Fold

end
-- ==== Proof.RefValue.lean ====
/-
  The reference program's result is the recurrent unit's step of its eleven arguments.

  The reference multiplies the input by the three input weights laid side by side along the lanes, and the state by the
  two gate weights laid side by side, then cuts the products back into column blocks of 2048 lanes. A column block of a
  product with arrays laid side by side is the product with the array that holds those lanes: that is the one fact here
  that is not pointwise, and it is a fact about indices only. Everything else is read index by index, in the order the
  program computes it; no law of arithmetic is used.
-/
import proofs.«146335_j50062138802351_1_alg».proof.Proof.Gen.ReferenceIdeal.Read
import proofs.«146335_j50062138802351_1_alg».proof.Proof.Spec

noncomputable section

namespace Cert.Gru.Ref

open Idealize.ShloMosaic Idealize.ShloMosaic.ValueIdx Cert.ReferenceIdeal Cert.ReferenceIdeal.Read

/-- The three argument types: activations `[8192, 2048]`, weights `[2048, 2048]`, a bias `[2048]`. -/
abbrev VAct : Type := (⟨S8192x2048, .f32⟩ : BufTy).Contents (Elt Ideal)
abbrev VWt : Type := (⟨S2048x2048, .f32⟩ : BufTy).Contents (Elt Ideal)
abbrev VBias : Type := (⟨S2048, .f32⟩ : BufTy).Contents (Elt Ideal)

/-! ## Arrays laid side by side along the lanes -/

/-- Three arrays `[2048, 2048]` side by side: a lane below 2048 reads the first. -/
theorem join3_first (x2 x5 x8 : VWt) (j : S2048x6144.Idx) (k q : Fin 2048)
    (h0 : (j 0).val = k.val) (h1 : (j 1).val = q.val) :
    val_main_v0 (F := Ideal) x2 x5 x8 j = x2 (ix2 k q) := by
  unfold val_main_v0
  refine concatenate_apply_piece (1 : Fin S2048x6144.rank) _ _ j 0 (by show 0 < 3; decide) S2048x2048 x2 rfl rfl 0 rfl (ix2 k q) ?_ ?_
  · intro b hb
    match b with
    | ⟨0, _⟩ => exact h0.symm
    | ⟨1, _⟩ => exact absurd rfl hb
  · show 0 + q.val = (j 1).val
    omega

/-- Three arrays side by side: a lane from 2048 up to 4096 reads the second, 2048 lanes back. -/
theorem join3_second (x2 x5 x8 : VWt) (j : S2048x6144.Idx) (k q : Fin 2048)
    (h0 : (j 0).val = k.val) (h1 : (j 1).val = 2048 + q.val) :
    val_main_v0 (F := Ideal) x2 x5 x8 j = x5 (ix2 k q) := by
  unfold val_main_v0
  refine concatenate_apply_piece (1 : Fin S2048x6144.rank) _ _ j 1 (by show 1 < 3; decide) S2048x2048 x5 rfl rfl 2048 rfl (ix2 k q) ?_ ?_
  · intro b hb
    match b with
    | ⟨0, _⟩ => exact h0.symm
    | ⟨1, _⟩ => exact absurd rfl hb
  · show 2048 + q.val = (j 1).val
    omega

/-- Three arrays side by side: a lane from 4096 up reads the third, 4096 lanes back. -/
theorem join3_third (x2 x5 x8 : VWt) (j : S2048x6144.Idx) (k q : Fin 2048)
    (h0 : (j 0).val = k.val) (h1 : (j 1).val = 4096 + q.val) :
    val_main_v0 (F := Ideal) x2 x5 x8 j = x8 (ix2 k q) := by
  unfold val_main_v0
  refine concatenate_apply_piece (1 : Fin S2048x6144.rank) _ _ j 2 (by show 2 < 3; decide) S2048x2048 x8 rfl rfl 4096 rfl (ix2 k q) ?_ ?_
  · intro b hb
    match b with
    | ⟨0, _⟩ => exact h0.symm
    | ⟨1, _⟩ => exact absurd rfl hb
  · show 4096 + q.val = (j 1).val
    omega

/-- Two arrays `[2048, 2048]` side by side: a lane below 2048 reads the first. -/
theorem join2_first (x3 x6 : VWt) (j : S2048x4096.Idx) (k q : Fin 2048)
    (h0 : (j 0).val = k.val) (h1 : (j 1).val = q.val) :
    val_main_v5 (F := Ideal) x3 x6 j = x3 (ix2 k q) := by
  unfold val_main_v5
  refine concatenate_apply_piece (1 : Fin S2048x4096.rank) _ _ j 0 (by show 0 < 2; decide) S2048x2048 x3 rfl rfl 0 rfl (ix2 k q) ?_ ?_
  · intro b hb
    match b with
    | ⟨0, _⟩ => exact h0.symm
    | ⟨1, _⟩ => exact absurd rfl hb
  · show 0 + q.val = (j 1).val
    omega

/-- Two arrays side by side: a lane from 2048 up reads the second, 2048 lanes back. -/
theorem join2_second (x3 x6 : VWt) (j : S2048x4096.Idx) (k q : Fin 2048)
    (h0 : (j 0).val = k.val) (h1 : (j 1).val = 2048 + q.val) :
    val_main_v5 (F := Ideal) x3 x6 j = x6 (ix2 k q) := by
  unfold val_main_v5
  refine concatenate_apply_piece (1 : Fin S2048x4096.rank) _ _ j 1 (by show 1 < 2; decide) S2048x2048 x6 rfl rfl 2048 rfl (ix2 k q) ?_ ?_
  · intro b hb
    match b with
    | ⟨0, _⟩ => exact h0.symm
    | ⟨1, _⟩ => exact absurd rfl hb
  · show 2048 + q.val = (j 1).val
    omega

/-! ## A column block of a product with arrays side by side is the product with the array holding those lanes -/

/-- The input times the first input weight. -/
theorem xW_first (x0 : VAct) (x2 x5 x8 : VWt) (p : Fin 8192) (q : Fin 2048) :
    val_main_v2 (F := Ideal) x0 x2 x5 x8 (ix2 p q) = ∑ k : Fin 2048, x0 (ix2 p k) * x2 (ix2 k q) := by
  rw [val_main_v2_apply, val_main_v1_apply]
  refine Finset.sum_congr rfl fun k _ => ?_
  have el : lidx_main_v1 (idx_main_v2 (ix2 p q)) k = ix2 p k :=
    funext fun a => Fin.ext (by match a with | ⟨0, _⟩ => rfl | ⟨1, _⟩ => rfl)
  rw [el, join3_first x2 x5 x8 _ k q rfl rfl]

/-- The input times the second input weight. -/
theorem xW_second (x0 : VAct) (x2 x5 x8 : VWt) (p : Fin 8192) (q : Fin 2048) :
    val_main_v3 (F := Ideal) x0 x2 x5 x8 (ix2 p q) = ∑ k : Fin 2048, x0 (ix2 p k) * x5 (ix2 k q) := by
  rw [val_main_v3_apply, val_main_v1_apply]
  refine Finset.sum_congr rfl fun k _ => ?_
  have el : lidx_main_v1 (idx_main_v3 (ix2 p q)) k = ix2 p k :=
    funext fun a => Fin.ext (by match a with | ⟨0, _⟩ => rfl | ⟨1, _⟩ => rfl)
  rw [el, join3_second x2 x5 x8 _ k q rfl rfl]

/-- The input times the third input weight. -/
theorem xW_third (x0 : VAct) (x2 x5 x8 : VWt) (p : Fin 8192) (q : Fin 2048) :
    val_main_v4 (F := Ideal) x0 x2 x5 x8 (ix2 p q) = ∑ k : Fin 2048, x0 (ix2 p k) * x8 (ix2 k q) := by
  rw [val_main_v4_apply, val_main_v1_apply]
  refine Finset.sum_congr rfl fun k _ => ?_
  have el : lidx_main_v1 (idx_main_v4 (ix2 p q)) k = ix2 p k :=
    funext fun a => Fin.ext (by match a with | ⟨0, _⟩ => rfl | ⟨1, _⟩ => rfl)
  rw [el, join3_third x2 x5 x8 _ k q rfl rfl]

/-- The state times the first state weight. -/
theorem hU_first (x1 : VAct) (x3 x6 : VWt) (p : Fin 8192) (q : Fin 2048) :
    val_main_v7 (F := Ideal) x1 x3 x6 (ix2 p q) = ∑ k : Fin 2048, x1 (ix2 p k) * x3 (ix2 k q) := by
  rw [val_main_v7_apply, val_main_v6_apply]
  refine Finset.sum_congr rfl fun k _ => ?_
  have el : lidx_main_v6 (idx_main_v7 (ix2 p q)) k = ix2 p k :=
    funext fun a => Fin.ext (by match a with | ⟨0, _⟩ => rfl | ⟨1, _⟩ => rfl)
  rw [el, join2_first x3 x6 _ k q rfl rfl]

/-- The state times the second state weight. -/
theorem hU_second (x1 : VAct) (x3 x6 : VWt) (p : Fin 8192) (q : Fin 2048) :
    val_main_v8 (F := Ideal) x1 x3 x6 (ix2 p q) = ∑ k : Fin 2048, x1 (ix2 p k) * x6 (ix2 k q) := by
  rw [val_main_v8_apply, val_main_v6_apply]
  refine Finset.sum_congr rfl fun k _ => ?_
  have el : lidx_main_v6 (idx_main_v8 (ix2 p q)) k = ix2 p k :=
    funext fun a => Fin.ext (by match a with | ⟨0, _⟩ => rfl | ⟨1, _⟩ => rfl)
  rw [el, join2_second x3 x6 _ k q rfl rfl]

/-! ## The two gates -/

/-- A bias `[2048]` spread over the rows reads, at `(p, q)`, the bias at lane `q`. -/
theorem bias_z (x4 : VBias) (p : Fin 8192) (q : Fin 2048) : val_main_v11 (F := Ideal) x4 (ix2 p q) = x4 (ix1 q) := by
  rw [val_main_v11_apply, val_main_v10_apply]
  exact congrArg x4 (funext fun a => Fin.ext (by match a with | ⟨0, _⟩ => rfl))

theorem bias_r (x7 : VBias) (p : Fin 8192) (q : Fin 2048) : val_main_v21 (F := Ideal) x7 (ix2 p q) = x7 (ix1 q) := by
  rw [val_main_v21_apply, val_main_v20_apply]
  exact congrArg x7 (funext fun a => Fin.ext (by match a with | ⟨0, _⟩ => rfl))

theorem bias_h (x10 : VBias) (p : Fin 8192) (q : Fin 2048) : val_main_v33 (F := Ideal) x10 (ix2 p q) = x10 (ix1 q) := by
  rw [val_main_v33_apply, val_main_v32_apply]
  exact congrArg x10 (funext fun a => Fin.ext (by match a with | ⟨0, _⟩ => rfl))

/-- The update gate: the logistic function, spelt with a negation, an exponential and a quotient, of the
    pre-activation with the first weights. -/
theorem gate_z (x0 x1 : VAct) (x2 x3 : VWt) (x4 : VBias) (x5 x6 x8 : VWt) (p : Fin 8192) (q : Fin 2048) :
    val_main_v18 (F := Ideal) x0 x1 x2 x3 x4 x5 x6 x8 (ix2 p q)
      = Cert.Gru.gate x0 x1 x2 x3 (fun q => x4 (ix1 q)) (ix2 p q) := by
  rw [val_main_v18_apply, val_main_v17_apply, val_main_cst_0_apply, val_main_v16_apply, val_main_v15_apply,
    val_main_cst_apply, val_main_v14_apply, val_main_v13_apply, val_main_v12_apply, val_main_v9_apply,
    xW_first, hU_first, bias_z, Cert.Gru.gate_apply]
  simp only [Ideal.ofBits_def, Ideal.addf_def, Ideal.hostDivf_def, Ideal.hostUnary_exp_def, Ideal.hostNegf_def,
    Ideal.negf_def]
  rw [Cert.Gru.logistic_spelt]
  rfl

/-- The reset gate: the same of the pre-activation with the second weights. -/
theorem gate_r (x0 x1 : VAct) (x2 x3 x5 x6 : VWt) (x7 : VBias) (x8 : VWt) (p : Fin 8192) (q : Fin 2048) :
    val_main_v28 (F := Ideal) x0 x1 x2 x3 x5 x6 x7 x8 (ix2 p q)
      = Cert.Gru.gate x0 x1 x5 x6 (fun q => x7 (ix1 q)) (ix2 p q) := by
  rw [val_main_v28_apply, val_main_v27_apply, val_main_cst_2_apply, val_main_v26_apply, val_main_v25_apply,
    val_main_cst_1_apply, val_main_v24_apply, val_main_v23_apply, val_main_v22_apply, val_main_v19_apply,
    xW_second, hU_second, bias_r, Cert.Gru.gate_apply]
  simp only [Ideal.ofBits_def, Ideal.addf_def, Ideal.hostDivf_def, Ideal.hostUnary_exp_def, Ideal.hostNegf_def,
    Ideal.negf_def]
  rw [Cert.Gru.logistic_spelt]
  rfl

/-! ## The candidate and the new state -/

/-- The reset gate times the state, times the third state weight: the product is taken at `r ⊙ h` in place of `h`. -/
theorem rhU (x0 x1 : VAct) (x2 x3 x5 x6 : VWt) (x7 : VBias) (x8 x9 : VWt) (p : Fin 8192) (q : Fin 2048) :
    val_main_v30 (F := Ideal) x0 x1 x2 x3 x5 x6 x7 x8 x9 (ix2 p q)
      = ∑ k : Fin 2048, (fun j => Cert.Gru.gate x0 x1 x5 x6 (fun q => x7 (ix1 q)) j * x1 j) (ix2 p k) * x9 (ix2 k q) := by
  rw [val_main_v30_apply]
  refine Finset.sum_congr rfl fun k _ => ?_
  have el : lidx_main_v30 (ix2 p q) k = ix2 p k :=
    funext fun a => Fin.ext (by match a with | ⟨0, _⟩ => rfl | ⟨1, _⟩ => rfl)
  have er : ridx_main_v30 (ix2 p q) k = ix2 k q :=
    funext fun a => Fin.ext (by match a with | ⟨0, _⟩ => rfl | ⟨1, _⟩ => rfl)
  rw [el, er, val_main_v29_apply, gate_r]
  rfl

/-- The last stage of the reference, as a function of the arguments, is `step`; a bias `[2048]` is read lane by lane. -/
theorem reference_eq_step (x0 x1 : (⟨S8192x2048, .f32⟩ : BufTy).Contents (Elt Ideal)) (x2 x3 : (⟨S2048x2048, .f32⟩ : BufTy).Contents (Elt Ideal))
    (x4 : (⟨S2048, .f32⟩ : BufTy).Contents (Elt Ideal)) (x5 x6 : (⟨S2048x2048, .f32⟩ : BufTy).Contents (Elt Ideal))
    (x7 : (⟨S2048, .f32⟩ : BufTy).Contents (Elt Ideal)) (x8 x9 : (⟨S2048x2048, .f32⟩ : BufTy).Contents (Elt Ideal))
    (x10 : (⟨S2048, .f32⟩ : BufTy).Contents (Elt Ideal)) :
    val_main_v40 (F := Ideal) x0 x1 x2 x3 x4 x5 x6 x7 x8 x9 x10
      = Cert.Gru.step x0 x1 x2 x3 (fun q => x4 (ix1 q)) x5 x6 (fun q => x7 (ix1 q)) x8 x9 (fun q => x10 (ix1 q)) := by
  funext i
  obtain ⟨p, q, rfl⟩ : ∃ (p : Fin 8192) (q : Fin 2048), i = ix2 p q := ⟨i 0, i 1, eq_ix2 i⟩
  rw [val_main_v40_apply, val_main_v38_apply, val_main_v37_apply, val_main_v36_apply, val_main_cst_3_apply,
    val_main_v39_apply, val_main_v35_apply, val_main_v34_apply, val_main_v31_apply, gate_z, xW_third, rhU, bias_h]
  unfold Cert.Gru.step
  rw [Cert.Gru.blend_apply]
  simp only [Ideal.ofBits_def, Ideal.addf_def, Ideal.subf_def, Ideal.mulf_def, Ideal.hostUnary_tanh_def]
  rfl

end Cert.Gru.Ref

end
-- ==== Proof.lean ====
/-
  A gated recurrent unit's step, computed by three kernel launches, against the same step written with fused products.

  The kernel program casts the six weight matrices to a narrower float format and reshapes the three biases to rows on
  the host, then runs three launches over 64 blocks of 128 rows each: the update gate `z = σ((x·Wz + h·Uz) + bz)`, the
  reset gate `r = σ((x·Wr + h·Ur) + br)`, and the new state `(1 - z)·h + z·tanh((x·Wh + (r ⊙ h)·Uh) + bh)`. The
  reference multiplies `x` by the three input weights laid side by side and `h` by the two gate weights laid side by
  side, cuts the products into their column blocks, and spells the logistic function as `1 / (1 + exp(-s))`.

  On the extended reals a change of float format is the identity, a matrix product into a zero accumulator is the sum
  over the contracted coordinate, a column block of a product with matrices laid side by side is the product with that
  matrix, and the logistic function is that quotient. So both programs compute one and the same expression, sum by sum
  and in the same grouping (`Cert.Gru.step`, Proof/Spec.lean); no law of arithmetic and no finiteness of the inputs is
  used. The pieces: each region's output array as a function of the arrays it finds (Proof/Gate0.lean, Gate1.lean,
  Final2.lean); those read back through the host stretch to the launch memory (Proof/Fold.lean); the kernel program's
  run with its result array named (Proof/KernelRun.lean); the reference's last stage as the same function
  (Proof/RefValue.lean). The three frames are the programs' runs with the results dropped; the idealization rewrote
  nothing, so there is nothing to preserve.
-/
import proofs.«146335_j50062138802351_1_alg».proof.Defs
import proofs.«146335_j50062138802351_1_alg».proof.Proof.Gen.Kernel
import proofs.«146335_j50062138802351_1_alg».proof.Proof.Gen.Kernel.Skeleton
import proofs.«146335_j50062138802351_1_alg».proof.Proof.Gen.Kernel.Launch
import proofs.«146335_j50062138802351_1_alg».proof.Proof.Gen.Kernel.Points
import proofs.«146335_j50062138802351_1_alg».proof.Proof.Gen.Kernel.Frame
import proofs.«146335_j50062138802351_1_alg».proof.Proof.Gen.KernelIdeal
import proofs.«146335_j50062138802351_1_alg».proof.Proof.Gen.KernelIdeal.Skeleton
import proofs.«146335_j50062138802351_1_alg».proof.Proof.Gen.KernelIdeal.Launch
import proofs.«146335_j50062138802351_1_alg».proof.Proof.Gen.KernelIdeal.Points
import proofs.«146335_j50062138802351_1_alg».proof.Proof.Gen.KernelIdeal.Frame
import proofs.«146335_j50062138802351_1_alg».proof.Proof.Gen.ReferenceIdeal
import proofs.«146335_j50062138802351_1_alg».proof.Proof.Gen.ReferenceIdeal.Run
import proofs.«146335_j50062138802351_1_alg».proof.Proof.Gen.ReferenceIdeal.Read
import proofs.«146335_j50062138802351_1_alg».proof.Proof.Gen.Pre_finite_inputs
import proofs.«146335_j50062138802351_1_alg».proof.Proof.Spec
import proofs.«146335_j50062138802351_1_alg».proof.Proof.KernelRun
import proofs.«146335_j50062138802351_1_alg».proof.Proof.Fold
import proofs.«146335_j50062138802351_1_alg».proof.Proof.RefValue
import Idealize.ShloMosaic.Adequacy
import Idealize.ShloMosaic.Init

noncomputable section

namespace Cert.Proof

open Idealize.ShloMosaic Idealize.SL.Sem

/-- Run from memories that agree on the eleven arguments, both idealized programs end with the result array at the
    recurrent unit's step of those arguments: the kernel program by its run with the result named and the fold back
    to the launch memory, the reference by its generated run and its last stage read as the step. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.Gru.step (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (fun q => m ((c.tc : Thread Cert.KernelIdeal.nD Cert.KernelIdeal.τ).loc Cert.KernelIdeal.main_arg4) (Idealize.ShloMosaic.ValueIdx.ix1 q))
      (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (fun q => m ((c.tc : Thread Cert.KernelIdeal.nD Cert.KernelIdeal.τ).loc Cert.KernelIdeal.main_arg7) (Idealize.ShloMosaic.ValueIdx.ix1 q))
      (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (fun q => m ((c.tc : Thread Cert.KernelIdeal.nD Cert.KernelIdeal.τ).loc Cert.KernelIdeal.main_arg10) (Idealize.ShloMosaic.ValueIdx.ix1 q)), ?_, ?_⟩
  · exact (θ_run Cert.KernelIdeal.defs _ _).mono
      (fun r h c => ⟨(h c).1.trans (Cert.Gru.Fold.result_eq m ρ c), (h c).2⟩)
      (Cert.KernelIdeal.Named.run_named (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9, h10⟩ := hagree c
    rw [Cert.ReferenceIdeal.Read.val_main_v40_eq, Cert.Gru.Ref.reference_eq_step, h0, h1, h2, h3, h4, h5, h6, h7, h8, h9, h10]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
